-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000x128 : Shape := ⟨2, ![800000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩

class Facts : Prop where
  slices_S2x800000_S1x800000_0_0 : S2x800000.Slices ![0, 0] S1x800000
  shapeCasts_S1x800000_S800000 : S1x800000.ShapeCasts S800000
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S800000 : S_.BroadcastsInDim S800000 (![] : Fin 0 → Fin S800000.rank)
  reducesTo_S800000_S_d0 : S800000.ReducesTo [0] S_

variable [Facts]

def fn_part6 {F : FTy → Type} [FloatOps F] (main_v1 : IVec S800000 32) (main_v100 : IVec S_ 1) (main_v102 : IVec S800000 1) : IVec S_ 1 :=
  let main_c_39 : IVec S_ 32 := constantI S_ 32 100000#32
  let main_v103 : IVec S800000 32 := broadcastInDim S800000 ![] bcast_S_S800000 main_c_39
  let main_v104 : IVec S800000 1 := cmpi .slt main_v1 main_v103
  let main_v105 : IVec S800000 1 := andi main_v102 main_v104
  let main_c_40 : IVec S_ 1 := constantI S_ 1 1#1
  let main_v106 : IVec S_ 1 := (fun x v => Host.reduce IntOp.andi x v reducesTo_S800000_S_d0 h_S_) main_v105 main_c_40
  let main_v107 : IVec S_ 1 := andi main_v100 main_v106
  main_v107

def fn_part5 {F : FTy → Type} [FloatOps F] (main_arg17 : FVec F S256 .f32) (main_arg18 : FVec F S256x128 .f32) (main_arg19 : FVec F S128 .f32) (main_v1 : IVec S800000 32) (main_v85 : IVec S_ 1) : IVec S_ 1 :=
  let main_v86 : FVec F S256 .f32 := Host.absf main_arg17
  let main_cst_32 : FVec F S_ .f32 := constant S_ .f32 0x7F800000#32
  let main_v87 : FVec F S256 .f32 := broadcastInDim S256 ![] bcast_S_S256 main_cst_32
  let main_v88 : IVec S256 1 := cmpf .olt main_v86 main_v87
  let main_c_33 : IVec S_ 1 := constantI S_ 1 1#1
  let main_v89 : IVec S_ 1 := (fun x v => Host.reduce IntOp.andi x v reducesTo_S256_S_d0 h_S_) main_v88 main_c_33
  let main_v90 : IVec S_ 1 := andi main_v85 main_v89
  let main_v91 : FVec F S256x128 .f32 := Host.absf main_arg18
  let main_cst_34 : FVec F S_ .f32 := constant S_ .f32 0x7F800000#32
  let main_v92 : FVec F S256x128 .f32 := broadcastInDim S256x128 ![] bcast_S_S256x128 main_cst_34
  let main_v93 : IVec S256x128 1 := cmpf .olt main_v91 main_v92
  let main_c_35 : IVec S_ 1 := constantI S_ 1 1#1
  let main_v94 : IVec S_ 1 := (fun x v => Host.reduce IntOp.andi x v reducesTo_S256x128_S_d0_1 h_S_) main_v93 main_c_35
  let main_v95 : IVec S_ 1 := andi main_v90 main_v94
  let main_v96 : FVec F S128 .f32 := Host.absf main_arg19
  let main_cst_36 : FVec F S_ .f32 := constant S_ .f32 0x7F800000#32
  let main_v97 : FVec F S128 .f32 := broadcastInDim S128 ![] bcast_S_S128 main_cst_36
  let main_v98 : IVec S128 1 := cmpf .olt main_v96 main_v97
  let main_c_37 : IVec S_ 1 := constantI S_ 1 1#1
  let main_v99 : IVec S_ 1 := (fun x v => Host.reduce IntOp.andi x v reducesTo_S128_S_d0 h_S_) main_v98 main_c_37
  let main_v100 : IVec S_ 1 := andi main_v95 main_v99
  let main_c_38 : IVec S_ 32 := constantI S_ 32 4294867296#32
  let main_v101 : IVec S800000 32 := broadcastInDim S800000 ![] bcast_S_S800000 main_c_38
  let main_v102 : IVec S800000 1 := cmpi .sge main_v1 main_v101
  fn_part6 (F := F) main_v1 main_v100 main_v102

def fn_part4 {F : FTy → Type} [FloatOps F] (main_arg14 : FVec F S128x128 .f32) (main_arg15 : FVec F S128 .f32) (main_arg16 : FVec F S128x256 .f32) (main_arg17 : FVec F S256 .f32) (main_arg18 : FVec F S256x128 .f32) (main_arg19 : FVec F S128 .f32) (main_v1 : IVec S800000 32) (main_v65 : IVec S_ 1) (main_v68 : IVec S128 1) : IVec S_ 1 :=
  let main_c_25 : IVec S_ 1 := constantI S_ 1 1#1
  let main_v69 : IVec S_ 1 := (fun x v => Host.reduce IntOp.andi x v reducesTo_S128_S_d0 h_S_) main_v68 main_c_25
  let main_v70 : IVec S_ 1 := andi main_v65 main_v69
  let main_v71 : FVec F S128x128 .f32 := Host.absf main_arg14
  let main_cst_26 : FVec F S_ .f32 := constant S_ .f32 0x7F800000#32
  let main_v72 : FVec F S128x128 .f32 := broadcastInDim S128x128 ![] bcast_S_S128x128 main_cst_26
  let main_v73 : IVec S128x128 1 := cmpf .olt main_v71 main_v72
  let main_c_27 : IVec S_ 1 := constantI S_ 1 1#1
  let main_v74 : IVec S_ 1 := (fun x v => Host.reduce IntOp.andi x v reducesTo_S128x128_S_d0_1 h_S_) main_v73 main_c_27
  let main_v75 : IVec S_ 1 := andi main_v70 main_v74
  let main_v76 : FVec F S128 .f32 := Host.absf main_arg15
  let main_cst_28 : FVec F S_ .f32 := constant S_ .f32 0x7F800000#32
  let main_v77 : FVec F S128 .f32 := broadcastInDim S128 ![] bcast_S_S128 main_cst_28
  let main_v78 : IVec S128 1 := cmpf .olt main_v76 main_v77
  let main_c_29 : IVec S_ 1 := constantI S_ 1 1#1
  let main_v79 : IVec S_ 1 := (fun x v => Host.reduce IntOp.andi x v reducesTo_S128_S_d0 h_S_) main_v78 main_c_29
  let main_v80 : IVec S_ 1 := andi main_v75 main_v79
  let main_v81 : FVec F S128x256 .f32 := Host.absf main_arg16
  let main_cst_30 : FVec F S_ .f32 := constant S_ .f32 0x7F800000#32
  let main_v82 : FVec F S128x256 .f32 := broadcastInDim S128x256 ![] bcast_S_S128x256 main_cst_30
  let main_v83 : IVec S128x256 1 := cmpf .olt main_v81 main_v82
  let main_c_31 : IVec S_ 1 := constantI S_ 1 1#1
  let main_v84 : IVec S_ 1 := (fun x v => Host.reduce IntOp.andi x v reducesTo_S128x256_S_d0_1 h_S_) main_v83 main_c_31
  let main_v85 : IVec S_ 1 := andi main_v80 main_v84
  fn_part5 (F := F) main_arg17 main_arg18 main_arg19 main_v1 main_v85

def fn_part3 {F : FTy → Type} [FloatOps F] (main_arg11 : FVec F S128 .f32) (main_arg12 : FVec F S128x128 .f32) (main_arg13 : FVec F S128 .f32) (main_arg14 : FVec F S128x128 .f32) (main_arg15 : FVec F S128 .f32) (main_arg16 : FVec F S128x256 .f32) (main_arg17 : FVec F S256 .f32) (main_arg18 : FVec F S256x128 .f32) (main_arg19 : FVec F S128 .f32) (main_v1 : IVec S800000 32) (main_v50 : IVec S_ 1) (main_v51 : FVec F S128x128 .f32) : IVec S_ 1 :=
  let main_cst_18 : FVec F S_ .f32 := constant S_ .f32 0x7F800000#32
  let main_v52 : FVec F S128x128 .f32 := broadcastInDim S128x128 ![] bcast_S_S128x128 main_cst_18
  let main_v53 : IVec S128x128 1 := cmpf .olt main_v51 main_v52
  let main_c_19 : IVec S_ 1 := constantI S_ 1 1#1
  let main_v54 : IVec S_ 1 := (fun x v => Host.reduce IntOp.andi x v reducesTo_S128x128_S_d0_1 h_S_) main_v53 main_c_19
  let main_v55 : IVec S_ 1 := andi main_v50 main_v54
  let main_v56 : FVec F S128 .f32 := Host.absf main_arg11
  let main_cst_20 : FVec F S_ .f32 := constant S_ .f32 0x7F800000#32
  let main_v57 : FVec F S128 .f32 := broadcastInDim S128 ![] bcast_S_S128 main_cst_20
  let main_v58 : IVec S128 1 := cmpf .olt main_v56 main_v57
  let main_c_21 : IVec S_ 1 := constantI S_ 1 1#1
  let main_v59 : IVec S_ 1 := (fun x v => Host.reduce IntOp.andi x v reducesTo_S128_S_d0 h_S_) main_v58 main_c_21
  let main_v60 : IVec S_ 1 := andi main_v55 main_v59
  let main_v61 : FVec F S128x128 .f32 := Host.absf main_arg12
  let main_cst_22 : FVec F S_ .f32 := constant S_ .f32 0x7F800000#32
  let main_v62 : FVec F S128x128 .f32 := broadcastInDim S128x128 ![] bcast_S_S128x128 main_cst_22
  let main_v63 : IVec S128x128 1 := cmpf .olt main_v61 main_v62
  let main_c_23 : IVec S_ 1 := constantI S_ 1 1#1
  let main_v64 : IVec S_ 1 := (fun x v => Host.reduce IntOp.andi x v reducesTo_S128x128_S_d0_1 h_S_) main_v63 main_c_23
  let main_v65 : IVec S_ 1 := andi main_v60 main_v64
  let main_v66 : FVec F S128 .f32 := Host.absf main_arg13
  let main_cst_24 : FVec F S_ .f32 := constant S_ .f32 0x7F800000#32
  let main_v67 : FVec F S128 .f32 := broadcastInDim S128 ![] bcast_S_S128 main_cst_24
  let main_v68 : IVec S128 1 := cmpf .olt main_v66 main_v67
  fn_part4 (F := F) main_arg14 main_arg15 main_arg16 main_arg17 main_arg18 main_arg19 main_v1 main_v65 main_v68

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x256 .f32) (main_arg17 : FVec F S256 .f32) (main_arg18 : FVec F S256x128 .f32) (main_arg19 : FVec F S128 .f32) (main_v1 : IVec S800000 32) (main_v30 : IVec S_ 1) (main_v33 : IVec S128x128 1) (main_c_11 : IVec S_ 1) : IVec S_ 1 :=
  let main_v34 : IVec S_ 1 := (fun x v => Host.reduce IntOp.andi x v reducesTo_S128x128_S_d0_1 h_S_) main_v33 main_c_11
  let main_v35 : IVec S_ 1 := andi main_v30 main_v34
  let main_v36 : FVec F S128 .f32 := Host.absf main_arg7
  let main_cst_12 : FVec F S_ .f32 := constant S_ .f32 0x7F800000#32
  let main_v37 : FVec F S128 .f32 := broadcastInDim S128 ![] bcast_S_S128 main_cst_12
  let main_v38 : IVec S128 1 := cmpf .olt main_v36 main_v37
  let main_c_13 : IVec S_ 1 := constantI S_ 1 1#1
  let main_v39 : IVec S_ 1 := (fun x v => Host.reduce IntOp.andi x v reducesTo_S128_S_d0 h_S_) main_v38 main_c_13
  let main_v40 : IVec S_ 1 := andi main_v35 main_v39
  let main_v41 : FVec F S128x128 .f32 := Host.absf main_arg8
  let main_cst_14 : FVec F S_ .f32 := constant S_ .f32 0x7F800000#32
  let main_v42 : FVec F S128x128 .f32 := broadcastInDim S128x128 ![] bcast_S_S128x128 main_cst_14
  let main_v43 : IVec S128x128 1 := cmpf .olt main_v41 main_v42
  let main_c_15 : IVec S_ 1 := constantI S_ 1 1#1
  let main_v44 : IVec S_ 1 := (fun x v => Host.reduce IntOp.andi x v reducesTo_S128x128_S_d0_1 h_S_) main_v43 main_c_15
  let main_v45 : IVec S_ 1 := andi main_v40 main_v44
  let main_v46 : FVec F S128 .f32 := Host.absf main_arg9
  let main_cst_16 : FVec F S_ .f32 := constant S_ .f32 0x7F800000#32
  let main_v47 : FVec F S128 .f32 := broadcastInDim S128 ![] bcast_S_S128 main_cst_16
  let main_v48 : IVec S128 1 := cmpf .olt main_v46 main_v47
  let main_c_17 : IVec S_ 1 := constantI S_ 1 1#1
  let main_v49 : IVec S_ 1 := (fun x v => Host.reduce IntOp.andi x v reducesTo_S128_S_d0 h_S_) main_v48 main_c_17
  let main_v50 : IVec S_ 1 := andi main_v45 main_v49
  let main_v51 : FVec F S128x128 .f32 := Host.absf main_arg10
  fn_part3 (F := F) main_arg11 main_arg12 main_arg13 main_arg14 main_arg15 main_arg16 main_arg17 main_arg18 main_arg19 main_v1 main_v50 main_v51

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x256 .f32) (main_arg17 : FVec F S256 .f32) (main_arg18 : FVec F S256x128 .f32) (main_arg19 : FVec F S128 .f32) (main_v1 : IVec S800000 32) (main_v15 : IVec S_ 1) (main_v16 : FVec F S800000x128 .f32) (main_cst_4 : FVec F S_ .f32) : IVec S_ 1 :=
  let main_v17 : FVec F S800000x128 .f32 := broadcastInDim S800000x128 ![] bcast_S_S800000x128 main_cst_4
  let main_v18 : IVec S800000x128 1 := cmpf .olt main_v16 main_v17
  let main_c_5 : IVec S_ 1 := constantI S_ 1 1#1
  let main_v19 : IVec S_ 1 := (fun x v => Host.reduce IntOp.andi x v reducesTo_S800000x128_S_d0_1 h_S_) main_v18 main_c_5
  let main_v20 : IVec S_ 1 := andi main_v15 main_v19
  let main_v21 : FVec F S128x128 .f32 := Host.absf main_arg4
  let main_cst_6 : FVec F S_ .f32 := constant S_ .f32 0x7F800000#32
  let main_v22 : FVec F S128x128 .f32 := broadcastInDim S128x128 ![] bcast_S_S128x128 main_cst_6
  let main_v23 : IVec S128x128 1 := cmpf .olt main_v21 main_v22
  let main_c_7 : IVec S_ 1 := constantI S_ 1 1#1
  let main_v24 : IVec S_ 1 := (fun x v => Host.reduce IntOp.andi x v reducesTo_S128x128_S_d0_1 h_S_) main_v23 main_c_7
  let main_v25 : IVec S_ 1 := andi main_v20 main_v24
  let main_v26 : FVec F S128 .f32 := Host.absf main_arg5
  let main_cst_8 : FVec F S_ .f32 := constant S_ .f32 0x7F800000#32
  let main_v27 : FVec F S128 .f32 := broadcastInDim S128 ![] bcast_S_S128 main_cst_8
  let main_v28 : IVec S128 1 := cmpf .olt main_v26 main_v27
  let main_c_9 : IVec S_ 1 := constantI S_ 1 1#1
  let main_v29 : IVec S_ 1 := (fun x v => Host.reduce IntOp.andi x v reducesTo_S128_S_d0 h_S_) main_v28 main_c_9
  let main_v30 : IVec S_ 1 := andi main_v25 main_v29
  let main_v31 : FVec F S128x128 .f32 := Host.absf main_arg6
  let main_cst_10 : FVec F S_ .f32 := constant S_ .f32 0x7F800000#32
  let main_v32 : FVec F S128x128 .f32 := broadcastInDim S128x128 ![] bcast_S_S128x128 main_cst_10
  let main_v33 : IVec S128x128 1 := cmpf .olt main_v31 main_v32
  let main_c_11 : IVec S_ 1 := constantI S_ 1 1#1
  fn_part2 (F := F) main_arg7 main_arg8 main_arg9 main_arg10 main_arg11 main_arg12 main_arg13 main_arg14 main_arg15 main_arg16 main_arg17 main_arg18 main_arg19 main_v1 main_v30 main_v33 main_c_11

def fn {F : FTy → Type} [FloatOps F] (main_arg0 : FVec F S100000x128 .f32) (main_arg1 : FVec F S100000x128 .f32) (main_arg2 : FVec F S800000x128 .f32) (main_arg3 : FVec F S800000x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x256 .f32) (main_arg17 : FVec F S256 .f32) (main_arg18 : FVec F S256x128 .f32) (main_arg19 : FVec F S128 .f32) (main_arg20 : IVec S2x800000 32) : IVec S_ 1 :=
  let main_v0 : IVec S1x800000 32 := (extractStridedSlice S1x800000 ![0, 0] · slices_S2x800000_S1x800000_0_0) main_arg20
  let main_v1 : IVec S800000 32 := shapeCast S800000 main_v0 shapeCasts_S1x800000_S800000
  let main_v2 : FVec F S100000x128 .f32 := Host.absf main_arg0
  let main_cst : FVec F S_ .f32 := constant S_ .f32 0x7F800000#32
  let main_v3 : FVec F S100000x128 .f32 := broadcastInDim S100000x128 ![] bcast_S_S100000x128 main_cst
  let main_v4 : IVec S100000x128 1 := cmpf .olt main_v2 main_v3
  let main_c : IVec S_ 1 := constantI S_ 1 1#1
  let main_v5 : IVec S_ 1 := (fun x v => Host.reduce IntOp.andi x v reducesTo_S100000x128_S_d0_1 h_S_) main_v4 main_c
  let main_v6 : FVec F S100000x128 .f32 := Host.absf main_arg1
  let main_cst_0 : FVec F S_ .f32 := constant S_ .f32 0x7F800000#32
  let main_v7 : FVec F S100000x128 .f32 := broadcastInDim S100000x128 ![] bcast_S_S100000x128 main_cst_0
  let main_v8 : IVec S100000x128 1 := cmpf .olt main_v6 main_v7
  let main_c_1 : IVec S_ 1 := constantI S_ 1 1#1
  let main_v9 : IVec S_ 1 := (fun x v => Host.reduce IntOp.andi x v reducesTo_S100000x128_S_d0_1 h_S_) main_v8 main_c_1
  let main_v10 : IVec S_ 1 := andi main_v5 main_v9
  let main_v11 : FVec F S800000x128 .f32 := Host.absf main_arg2
  let main_cst_2 : FVec F S_ .f32 := constant S_ .f32 0x7F800000#32
  let main_v12 : FVec F S800000x128 .f32 := broadcastInDim S800000x128 ![] bcast_S_S800000x128 main_cst_2
  let main_v13 : IVec S800000x128 1 := cmpf .olt main_v11 main_v12
  let main_c_3 : IVec S_ 1 := constantI S_ 1 1#1
  let main_v14 : IVec S_ 1 := (fun x v => Host.reduce IntOp.andi x v reducesTo_S800000x128_S_d0_1 h_S_) main_v13 main_c_3
  let main_v15 : IVec S_ 1 := andi main_v10 main_v14
  let main_v16 : FVec F S800000x128 .f32 := Host.absf main_arg3
  let main_cst_4 : FVec F S_ .f32 := constant S_ .f32 0x7F800000#32
  fn_part1 (F := F) main_arg4 main_arg5 main_arg6 main_arg7 main_arg8 main_arg9 main_arg10 main_arg11 main_arg12 main_arg13 main_arg14 main_arg15 main_arg16 main_arg17 main_arg18 main_arg19 main_v1 main_v15 main_v16 main_cst_4
-- ==== Kernel.lean ====
abbrev S100000x128 : Shape := ⟨2, ![100000, 128]⟩
abbrev S800000x128 : Shape := ⟨2, ![800000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S2x800000 : Shape := ⟨2, ![2, 800000]⟩
abbrev S1x128 : Shape := ⟨2, ![1, 128]⟩
abbrev S10000x128 : Shape := ⟨2, ![10000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S1x256 : Shape := ⟨2, ![1, 256]⟩
abbrev S5000x128 : Shape := ⟨2, ![5000, 128]⟩
abbrev S5000x256 : Shape := ⟨2, ![5000, 256]⟩

abbrev nBuf : Space → Nat
  | .hbm => 64
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S800000x128, .f32⟩
  | .hbm, ⟨3, _⟩ => ⟨S800000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x256, .f32⟩
  | .hbm, ⟨17, _⟩ => ⟨S256, .f32⟩
  | .hbm, ⟨18, _⟩ => ⟨S256x128, .f32⟩
  | .hbm, ⟨19, _⟩ => ⟨S128, .f32⟩
  | .hbm, ⟨20, _⟩ => ⟨S2x800000, .i32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S1x800000, .i32⟩
  | .hbm, ⟨27, _⟩ => ⟨S800000, .i32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S1, .i32⟩
  | .hbm, ⟨37, _⟩ => ⟨S_, .i32⟩
  | .hbm, ⟨38, _⟩ => ⟨S800000x1, .i32⟩
  | .hbm, ⟨39, _⟩ => ⟨S800000x1, .i1⟩
  | .hbm, ⟨40, _⟩ => ⟨S1x1, .i32⟩
  | .hbm, ⟨41, _⟩ => ⟨S800000x1, .i32⟩
  | .hbm, ⟨42, _⟩ => ⟨S800000x1, .i1⟩
  | .hbm, ⟨43, _⟩ => ⟨S800000x1, .i1⟩
  | .hbm, ⟨44, _⟩ => ⟨S_, .i1⟩
  | .hbm, ⟨45, _⟩ => ⟨S800000, .i1⟩
  | .hbm, ⟨46, _⟩ => ⟨S800000x128, .f32⟩
  | .hbm, ⟨47, _⟩ => ⟨S800000x128, .i1⟩
  | .hbm, ⟨48, _⟩ => ⟨S_, .f32⟩
  | .hbm, ⟨49, _⟩ => ⟨S800000x128, .f32⟩
  | .hbm, ⟨50, _⟩ => ⟨S800000x128, .f32⟩
  | .hbm, ⟨51, _⟩ => ⟨S1x128, .f32⟩
  | .hbm, ⟨52, _⟩ => ⟨S1x128, .f32⟩
  | .hbm, ⟨53, _⟩ => ⟨S800000x128, .f32⟩
  | .hbm, ⟨54, _⟩ => ⟨S1x800000, .i32⟩
  | .hbm, ⟨55, _⟩ => ⟨S800000, .i32⟩
  | .hbm, ⟨56, _⟩ => ⟨S_, .f32⟩
  | .hbm, ⟨57, _⟩ => ⟨S100000x128, .f32⟩
  | .hbm, ⟨58, _⟩ => ⟨S800000x1, .i32⟩
  | .hbm, ⟨59, _⟩ => ⟨S100000x128, .f32⟩
  | .hbm, ⟨60, _⟩ => ⟨S1x128, .f32⟩
  | .hbm, ⟨61, _⟩ => ⟨S1x256, .f32⟩
  | .hbm, ⟨62, _⟩ => ⟨S1x128, .f32⟩
  | .hbm, ⟨63, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S10000x128, .f32⟩
  | .local _ .vmem, ⟨25, _⟩ => ⟨S10000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S128x256, .f32⟩
  | .local _ .vmem, ⟨37, _⟩ => ⟨S1x256, .f32⟩
  | .local _ .vmem, ⟨38, _⟩ => ⟨S256x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3_0 : Ref sig .tc := ⟨.hbm, 24, rfl⟩
abbrev main_v3_1 : Ref sig .tc := ⟨.hbm, 25, rfl⟩
abbrev main_v4 : Ref sig .tc := ⟨.hbm, 26, rfl⟩
abbrev main_v5 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_cst : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S10000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S10000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  shapeCasts_S10000x128_S10000x128 : S10000x128.ShapeCasts S10000x128
  slices_S2x800000_S1x800000_1_0 : S2x800000.Slices ![1, 0] S1x800000
  bcast_S_S100000x128 : S_.BroadcastsInDim S100000x128 (![] : Fin 0 → Fin S100000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  dot_S10000x128_S128x128_S10000x128_1_0_0_1_n_n_wf : DotDims.WF S10000x128 S128x128 S10000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x128.size a ≤ S100000x128.size a
  hwx0_8 : ∀ i : grid0.Coords, EltTy.bits .f32 = 32 ∨ (Rect.block (s := S100000x128) S10000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x128.size a ≤ S100000x128.size a
  hwx0_9 : ∀ i : grid0.Coords, EltTy.bits .f32 = 32 ∨ (Rect.block (s := S100000x128) S10000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S800000x128.size a
  hwx1_0 : ∀ i : grid1.Coords, EltTy.bits .f32 = 32 ∨ (Rect.block (s := S800000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S800000x128.size a
  hwx1_1 : ∀ i : grid1.Coords, EltTy.bits .f32 = 32 ∨ (Rect.block (s := S800000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S800000x128.size a
  hwx1_2 : ∀ i : grid1.Coords, EltTy.bits .f32 = 32 ∨ (Rect.block (s := S800000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S800000x128.size a
  hwx1_7 : ∀ i : grid1.Coords, EltTy.bits .f32 = 32 ∨ (Rect.block (s := S800000x128) S10000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x256.size a ≤ S128x256.size a
  hwx2_6 : ∀ i : grid2.Coords, EltTy.bits .f32 = 32 ∨ (Rect.block (s := S128x256) S128x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x128.size a ≤ S256x128.size a
  hwx2_8 : ∀ i : grid2.Coords, EltTy.bits .f32 = 32 ∨ (Rect.block (s := S256x128) S256x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x128.size a ≤ S100000x128.size a
  hwx2_10 : ∀ i : grid2.Coords, EltTy.bits .f32 = 32 ∨ (Rect.block (s := S100000x128) S5000x128.size (cc2_transform_10 i) (hinb2_10 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S10000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S10000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg3) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S10000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v3_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_1) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg0) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg16) S128x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v16) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg18) S256x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v17) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v18) S5000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x128 : Shape := ⟨2, ![100000, 128]⟩
abbrev S800000x128 : Shape := ⟨2, ![800000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S2x800000 : Shape := ⟨2, ![2, 800000]⟩
abbrev S1x128 : Shape := ⟨2, ![1, 128]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S100000x256 : Shape := ⟨2, ![100000, 256]⟩
abbrev S1x256 : Shape := ⟨2, ![1, 256]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S800000x128, .f32⟩
  | .hbm, ⟨3, _⟩ => ⟨S800000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x256, .f32⟩
  | .hbm, ⟨17, _⟩ => ⟨S256, .f32⟩
  | .hbm, ⟨18, _⟩ => ⟨S256x128, .f32⟩
  | .hbm, ⟨19, _⟩ => ⟨S128, .f32⟩
  | .hbm, ⟨20, _⟩ => ⟨S2x800000, .i32⟩
  | .hbm, ⟨21, _⟩ => ⟨S100000x128, .f32⟩
  | .hbm, ⟨22, _⟩ => ⟨S1x128, .f32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S1x800000, .i32⟩
  | .hbm, ⟨38, _⟩ => ⟨S800000, .i32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S800000x128, .f32⟩
  | .hbm, ⟨49, _⟩ => ⟨S800000x128, .f32⟩
  | .hbm, ⟨50, _⟩ => ⟨S1x128, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S800000x128, .f32⟩
  | .hbm, ⟨55, _⟩ => ⟨S800000x128, .f32⟩
  | .hbm, ⟨56, _⟩ => ⟨S800000x128, .f32⟩
  | .hbm, ⟨57, _⟩ => ⟨S800000x128, .f32⟩
  | .hbm, ⟨58, _⟩ => ⟨S1x128, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S800000x128, .f32⟩
  | .hbm, ⟨63, _⟩ => ⟨S800000x128, .f32⟩
  | .hbm, ⟨64, _⟩ => ⟨S800000x128, .f32⟩
  | .hbm, ⟨65, _⟩ => ⟨S_, .f32⟩
  | .hbm, ⟨66, _⟩ => ⟨S800000x128, .f32⟩
  | .hbm, ⟨67, _⟩ => ⟨S800000x128, .f32⟩
  | .hbm, ⟨68, _⟩ => ⟨S1x800000, .i32⟩
  | .hbm, ⟨69, _⟩ => ⟨S800000, .i32⟩
  | .hbm, ⟨70, _⟩ => ⟨S_, .f32⟩
  | .hbm, ⟨71, _⟩ => ⟨S100000x128, .f32⟩
  | .hbm, ⟨72, _⟩ => ⟨S800000x1, .i32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x256, .f32⟩
  | .hbm, ⟨85, _⟩ => ⟨S1x256, .f32⟩
  | .hbm, ⟨86, _⟩ => ⟨S100000x256, .f32⟩
  | .hbm, ⟨87, _⟩ => ⟨S100000x256, .f32⟩
  | .hbm, ⟨88, _⟩ => ⟨S_, .f32⟩
  | .hbm, ⟨89, _⟩ => ⟨S100000x256, .f32⟩
  | .hbm, ⟨90, _⟩ => ⟨S100000x256, .f32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_call0_cst : Ref sig .tc := ⟨.hbm, 34, rfl⟩
abbrev main_call0_v0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call1_cst : Ref sig .tc := ⟨.hbm, 53, rfl⟩
abbrev main_call1_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_call2_cst : Ref sig .tc := ⟨.hbm, 61, rfl⟩
abbrev main_call2_v0 : Ref sig .tc := ⟨.hbm, 62, rfl⟩
abbrev main_v34 : Ref sig .tc := ⟨.hbm, 63, rfl⟩
abbrev main_v35 : Ref sig .tc := ⟨.hbm, 64, rfl⟩
abbrev main_call3_cst : Ref sig .tc := ⟨.hbm, 65, rfl⟩
abbrev main_call3_v0 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_call4_cst : Ref sig .tc := ⟨.hbm, 80, rfl⟩
abbrev main_call4_v0 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_call5_cst : Ref sig .tc := ⟨.hbm, 88, rfl⟩
abbrev main_call5_v0 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  slices_S2x800000_S1x800000_1_0 : S2x800000.Slices ![1, 0] S1x800000
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  dot_S800000x128_S128x128_S800000x128_1_0_0_1_n_n_wf : DotDims.WF S800000x128 S128x128 S800000x128 [1] [0] [0] [1] [] []
  scatter_S100000x128_S800000x1_S800000x128_1_0_0_1_wf : ScatterDims.WF S100000x128 S800000x1 S800000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.GlueArgs.lean ====
/-
  An argument array of @main is written by no host operation and by no kernel region (a region reads it through an input
  window or does not touch it), so at every boundary between @main's segments it holds what it was launched with.
-/
import proofs.«406966_j19507741458638_1_alg».proof.Proof.Gen.KernelIdeal.Frame
import Idealize.ShloMosaic.Lib.StableHlo.Run
import Idealize.ShloMosaic.Lib.Pipeline.Value
import Idealize.ShloMosaic.Lib.ValueLayout

set_option maxRecDepth 16384

noncomputable section

namespace Cert.KernelIdeal.GlueArgs

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-! ## Stage boundaries

`W1 … W8` name the TensorCore's buffer contents at the boundaries between @main's stretches of host operations and its three
kernel regions. An argument array is written by nobody, so at every boundary it holds what it was launched with. -/

-- an argument array after the first stretch (three reshapes of bias vectors)
theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results
theorem W1_arg7 (c : Dev nD) : W1 m ρ c (Proc.devRef .tc main_arg7) = m ((c : Thread nD τ).loc main_arg7) := by
  show StableHlo.after hostOps0 (W0 m ρ c) (Proc.devRef .tc main_arg7) = _
  after_results
theorem W1_arg8 (c : Dev nD) : W1 m ρ c (Proc.devRef .tc main_arg8) = m ((c : Thread nD τ).loc main_arg8) := by
  show StableHlo.after hostOps0 (W0 m ρ c) (Proc.devRef .tc main_arg8) = _
  after_results
theorem W1_arg9 (c : Dev nD) : W1 m ρ c (Proc.devRef .tc main_arg9) = m ((c : Thread nD τ).loc main_arg9) := by
  show StableHlo.after hostOps0 (W0 m ρ c) (Proc.devRef .tc main_arg9) = _
  after_results
theorem W1_arg10 (c : Dev nD) : W1 m ρ c (Proc.devRef .tc main_arg10) = m ((c : Thread nD τ).loc main_arg10) := by
  show StableHlo.after hostOps0 (W0 m ρ c) (Proc.devRef .tc main_arg10) = _
  after_results
theorem W1_arg11 (c : Dev nD) : W1 m ρ c (Proc.devRef .tc main_arg11) = m ((c : Thread nD τ).loc main_arg11) := by
  show StableHlo.after hostOps0 (W0 m ρ c) (Proc.devRef .tc main_arg11) = _
  after_results
theorem W1_arg12 (c : Dev nD) : W1 m ρ c (Proc.devRef .tc main_arg12) = m ((c : Thread nD τ).loc main_arg12) := by
  show StableHlo.after hostOps0 (W0 m ρ c) (Proc.devRef .tc main_arg12) = _
  after_results
theorem W1_arg13 (c : Dev nD) : W1 m ρ c (Proc.devRef .tc main_arg13) = m ((c : Thread nD τ).loc main_arg13) := by
  show StableHlo.after hostOps0 (W0 m ρ c) (Proc.devRef .tc main_arg13) = _
  after_results
theorem W1_arg14 (c : Dev nD) : W1 m ρ c (Proc.devRef .tc main_arg14) = m ((c : Thread nD τ).loc main_arg14) := by
  show StableHlo.after hostOps0 (W0 m ρ c) (Proc.devRef .tc main_arg14) = _
  after_results
theorem W1_arg15 (c : Dev nD) : W1 m ρ c (Proc.devRef .tc main_arg15) = m ((c : Thread nD τ).loc main_arg15) := by
  show StableHlo.after hostOps0 (W0 m ρ c) (Proc.devRef .tc main_arg15) = _
  after_results
theorem W1_arg16 (c : Dev nD) : W1 m ρ c (Proc.devRef .tc main_arg16) = m ((c : Thread nD τ).loc main_arg16) := by
  show StableHlo.after hostOps0 (W0 m ρ c) (Proc.devRef .tc main_arg16) = _
  after_results
theorem W1_arg17 (c : Dev nD) : W1 m ρ c (Proc.devRef .tc main_arg17) = m ((c : Thread nD τ).loc main_arg17) := by
  show StableHlo.after hostOps0 (W0 m ρ c) (Proc.devRef .tc main_arg17) = _
  after_results
theorem W1_arg18 (c : Dev nD) : W1 m ρ c (Proc.devRef .tc main_arg18) = m ((c : Thread nD τ).loc main_arg18) := by
  show StableHlo.after hostOps0 (W0 m ρ c) (Proc.devRef .tc main_arg18) = _
  after_results
theorem W1_arg19 (c : Dev nD) : W1 m ρ c (Proc.devRef .tc main_arg19) = m ((c : Thread nD τ).loc main_arg19) := by
  show StableHlo.after hostOps0 (W0 m ρ c) (Proc.devRef .tc main_arg19) = _
  after_results
theorem W1_arg20 (c : Dev nD) : W1 m ρ c (Proc.devRef .tc main_arg20) = m ((c : Thread nD τ).loc main_arg20) := by
  show StableHlo.after hostOps0 (W0 m ρ c) (Proc.devRef .tc main_arg20) = _
  after_results

-- an argument array at the node stage's exit: the region writes only its two outputs
theorem W2_arg0 (c : Dev nD) : W2 m ρ c (Proc.devRef .tc main_arg0) = m ((c : Thread nD τ).loc main_arg0) :=
  (W2_arr m ρ c 0).trans ((((dat0 (V1 m ρ) c).arrAt_in 0 rfl _).trans (A_eq0 (V1 m ρ) c 0)).trans (W1_arg0 m ρ c))
theorem W2_arg1 (c : Dev nD) : W2 m ρ c (Proc.devRef .tc main_arg1) = m ((c : Thread nD τ).loc main_arg1) :=
  (W2_arr m ρ c 1).trans ((((dat0 (V1 m ρ) c).arrAt_in 1 rfl _).trans (A_eq0 (V1 m ρ) c 1)).trans (W1_arg1 m ρ c))
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_arr m ρ c 2).trans ((((dat0 (V1 m ρ) c).arrAt_in 2 rfl _).trans (A_eq0 (V1 m ρ) c 2)).trans (W1_arg4 m ρ c))
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_arr m ρ c 4).trans ((((dat0 (V1 m ρ) c).arrAt_in 4 rfl _).trans (A_eq0 (V1 m ρ) c 4)).trans (W1_arg6 m ρ c))
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_arr m ρ c 6).trans ((((dat0 (V1 m ρ) c).arrAt_in 6 rfl _).trans (A_eq0 (V1 m ρ) c 6)).trans (W1_arg8 m ρ c))
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W2_arg14 (c : Dev nD) : W2 m ρ c (Proc.devRef .tc main_arg14) = m ((c : Thread nD τ).loc main_arg14) :=
  (W2_of_ne m ρ c main_arg14 (by decide)).trans (W1_arg14 m ρ c)
theorem W2_arg15 (c : Dev nD) : W2 m ρ c (Proc.devRef .tc main_arg15) = m ((c : Thread nD τ).loc main_arg15) :=
  (W2_of_ne m ρ c main_arg15 (by decide)).trans (W1_arg15 m ρ c)
theorem W2_arg16 (c : Dev nD) : W2 m ρ c (Proc.devRef .tc main_arg16) = m ((c : Thread nD τ).loc main_arg16) :=
  (W2_of_ne m ρ c main_arg16 (by decide)).trans (W1_arg16 m ρ c)
theorem W2_arg17 (c : Dev nD) : W2 m ρ c (Proc.devRef .tc main_arg17) = m ((c : Thread nD τ).loc main_arg17) :=
  (W2_of_ne m ρ c main_arg17 (by decide)).trans (W1_arg17 m ρ c)
theorem W2_arg18 (c : Dev nD) : W2 m ρ c (Proc.devRef .tc main_arg18) = m ((c : Thread nD τ).loc main_arg18) :=
  (W2_of_ne m ρ c main_arg18 (by decide)).trans (W1_arg18 m ρ c)
theorem W2_arg19 (c : Dev nD) : W2 m ρ c (Proc.devRef .tc main_arg19) = m ((c : Thread nD τ).loc main_arg19) :=
  (W2_of_ne m ρ c main_arg19 (by decide)).trans (W1_arg19 m ρ c)
theorem W2_arg20 (c : Dev nD) : W2 m ρ c (Proc.devRef .tc main_arg20) = m ((c : Thread nD τ).loc main_arg20) :=
  (W2_of_ne m ρ c main_arg20 (by decide)).trans (W1_arg20 m ρ c)

-- an argument array after the three stretches between the node stage and the edge stage (the index slice, the row gather, two reshapes)
theorem W5_arg2 (c : Dev nD) : W5 m ρ c (Proc.devRef .tc main_arg2) = m ((c : Thread nD τ).loc main_arg2) := by
  show StableHlo.after hostOps1_2 (StableHlo.after hostOps1_1 (StableHlo.after hostOps1 (W2 m ρ c))) (Proc.devRef .tc main_arg2) = _
  after_results
  exact W2_arg2 m ρ c
theorem W5_arg3 (c : Dev nD) : W5 m ρ c (Proc.devRef .tc main_arg3) = m ((c : Thread nD τ).loc main_arg3) := by
  show StableHlo.after hostOps1_2 (StableHlo.after hostOps1_1 (StableHlo.after hostOps1 (W2 m ρ c))) (Proc.devRef .tc main_arg3) = _
  after_results
  exact W2_arg3 m ρ c
theorem W5_arg10 (c : Dev nD) : W5 m ρ c (Proc.devRef .tc main_arg10) = m ((c : Thread nD τ).loc main_arg10) := by
  show StableHlo.after hostOps1_2 (StableHlo.after hostOps1_1 (StableHlo.after hostOps1 (W2 m ρ c))) (Proc.devRef .tc main_arg10) = _
  after_results
  exact W2_arg10 m ρ c
theorem W5_arg12 (c : Dev nD) : W5 m ρ c (Proc.devRef .tc main_arg12) = m ((c : Thread nD τ).loc main_arg12) := by
  show StableHlo.after hostOps1_2 (StableHlo.after hostOps1_1 (StableHlo.after hostOps1 (W2 m ρ c))) (Proc.devRef .tc main_arg12) = _
  after_results
  exact W2_arg12 m ρ c
theorem W5_arg0 (c : Dev nD) : W5 m ρ c (Proc.devRef .tc main_arg0) = m ((c : Thread nD τ).loc main_arg0) := by
  show StableHlo.after hostOps1_2 (StableHlo.after hostOps1_1 (StableHlo.after hostOps1 (W2 m ρ c))) (Proc.devRef .tc main_arg0) = _
  after_results
  exact W2_arg0 m ρ c
theorem W5_arg14 (c : Dev nD) : W5 m ρ c (Proc.devRef .tc main_arg14) = m ((c : Thread nD τ).loc main_arg14) := by
  show StableHlo.after hostOps1_2 (StableHlo.after hostOps1_1 (StableHlo.after hostOps1 (W2 m ρ c))) (Proc.devRef .tc main_arg14) = _
  after_results
  exact W2_arg14 m ρ c
theorem W5_arg15 (c : Dev nD) : W5 m ρ c (Proc.devRef .tc main_arg15) = m ((c : Thread nD τ).loc main_arg15) := by
  show StableHlo.after hostOps1_2 (StableHlo.after hostOps1_1 (StableHlo.after hostOps1 (W2 m ρ c))) (Proc.devRef .tc main_arg15) = _
  after_results
  exact W2_arg15 m ρ c
theorem W5_arg16 (c : Dev nD) : W5 m ρ c (Proc.devRef .tc main_arg16) = m ((c : Thread nD τ).loc main_arg16) := by
  show StableHlo.after hostOps1_2 (StableHlo.after hostOps1_1 (StableHlo.after hostOps1 (W2 m ρ c))) (Proc.devRef .tc main_arg16) = _
  after_results
  exact W2_arg16 m ρ c
theorem W5_arg17 (c : Dev nD) : W5 m ρ c (Proc.devRef .tc main_arg17) = m ((c : Thread nD τ).loc main_arg17) := by
  show StableHlo.after hostOps1_2 (StableHlo.after hostOps1_1 (StableHlo.after hostOps1 (W2 m ρ c))) (Proc.devRef .tc main_arg17) = _
  after_results
  exact W2_arg17 m ρ c
theorem W5_arg18 (c : Dev nD) : W5 m ρ c (Proc.devRef .tc main_arg18) = m ((c : Thread nD τ).loc main_arg18) := by
  show StableHlo.after hostOps1_2 (StableHlo.after hostOps1_1 (StableHlo.after hostOps1 (W2 m ρ c))) (Proc.devRef .tc main_arg18) = _
  after_results
  exact W2_arg18 m ρ c
theorem W5_arg19 (c : Dev nD) : W5 m ρ c (Proc.devRef .tc main_arg19) = m ((c : Thread nD τ).loc main_arg19) := by
  show StableHlo.after hostOps1_2 (StableHlo.after hostOps1_1 (StableHlo.after hostOps1 (W2 m ρ c))) (Proc.devRef .tc main_arg19) = _
  after_results
  exact W2_arg19 m ρ c
theorem W5_arg20 (c : Dev nD) : W5 m ρ c (Proc.devRef .tc main_arg20) = m ((c : Thread nD τ).loc main_arg20) := by
  show StableHlo.after hostOps1_2 (StableHlo.after hostOps1_1 (StableHlo.after hostOps1 (W2 m ρ c))) (Proc.devRef .tc main_arg20) = _
  after_results
  exact W2_arg20 m ρ c

-- an argument array at the edge stage's exit
theorem W6_arg0 (c : Dev nD) : W6 m ρ c (Proc.devRef .tc main_arg0) = m ((c : Thread nD τ).loc main_arg0) :=
  (W6_of_ne m ρ c main_arg0 (by decide)).trans (W5_arg0 m ρ c)
theorem W6_arg14 (c : Dev nD) : W6 m ρ c (Proc.devRef .tc main_arg14) = m ((c : Thread nD τ).loc main_arg14) :=
  (W6_of_ne m ρ c main_arg14 (by decide)).trans (W5_arg14 m ρ c)
theorem W6_arg15 (c : Dev nD) : W6 m ρ c (Proc.devRef .tc main_arg15) = m ((c : Thread nD τ).loc main_arg15) :=
  (W6_of_ne m ρ c main_arg15 (by decide)).trans (W5_arg15 m ρ c)
theorem W6_arg16 (c : Dev nD) : W6 m ρ c (Proc.devRef .tc main_arg16) = m ((c : Thread nD τ).loc main_arg16) :=
  (W6_of_ne m ρ c main_arg16 (by decide)).trans (W5_arg16 m ρ c)
theorem W6_arg17 (c : Dev nD) : W6 m ρ c (Proc.devRef .tc main_arg17) = m ((c : Thread nD τ).loc main_arg17) :=
  (W6_of_ne m ρ c main_arg17 (by decide)).trans (W5_arg17 m ρ c)
theorem W6_arg18 (c : Dev nD) : W6 m ρ c (Proc.devRef .tc main_arg18) = m ((c : Thread nD τ).loc main_arg18) :=
  (W6_of_ne m ρ c main_arg18 (by decide)).trans (W5_arg18 m ρ c)
theorem W6_arg19 (c : Dev nD) : W6 m ρ c (Proc.devRef .tc main_arg19) = m ((c : Thread nD τ).loc main_arg19) :=
  (W6_of_ne m ρ c main_arg19 (by decide)).trans (W5_arg19 m ρ c)
theorem W6_arg20 (c : Dev nD) : W6 m ρ c (Proc.devRef .tc main_arg20) = m ((c : Thread nD τ).loc main_arg20) :=
  (W6_of_ne m ρ c main_arg20 (by decide)).trans (W5_arg20 m ρ c)

end Cert.KernelIdeal.GlueArgs

end
-- ==== Proof.Spec.lean ====
/-
  The three dense stages of the message-passing layer as functions of whole arrays over the extended reals, index by index.

  Every dense layer is the same affine map: entry (r, c) of `X · W + b` is the sum over k of X[r, k] · W[k, c], plus the
  bias row's entry c (`lin`). A rectifier is the maximum with the number that the word of +0.0 denotes (`relu`).
  * node stage:   h = relu ((x Wq + bq) ⊙ (p Wk + bk))   (`hS`),   V = p Wv + bv   (`vS`);
  * edge stage:   msg = relu (src + relu ((relu ((ea + pe) We1 + be1) + pe) We2 + be2))   (`mS`);
  * output stage: out = relu (relu ((h + V) + aggr) Wh + bh) + x) Wf1 + bf1) Wf2 + bf2   (`oS`).
  The gather that makes `src` from `h` and the scatter-add that makes `aggr` from `msg` are not spelled here: both
  programs apply the same two operations to the same index words.
  A bias vector of length n enters a layer as a 1 × n row (`row`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An r × c array of extended reals. -/
abbrev Arr (r c : Nat) : Type := (⟨2, ![r, c]⟩ : Shape).Idx → EReal

/-- A length-n vector of extended reals. -/
abbrev Vc (n : Nat) : Type := (⟨1, ![n]⟩ : Shape).Idx → EReal

/-- The number the word of +0.0 denotes. -/
abbrev z : EReal := Ideal.ofBits .f32 0x00000000#32

/-- The rectifier: the larger of a number and zero's word. -/
def relu (a : EReal) : EReal := max a z

/-- A vector as a one-row matrix. -/
def row {n : Nat} (b : Vc n) : Arr 1 n := fun j => b (ix1 (n := n) (j 1))

/-- An affine layer: row `i 0` of `X` against column `i 1` of `W`, plus the bias row's entry `i 1`. -/
def lin {R K C : Nat} (X : Arr R K) (W : Arr K C) (b : Arr 1 C) : Arr R C :=
  fun i => (∑ k : Fin K, X (ix2 (n0 := R) (n1 := K) (i 0) k) * W (ix2 (n0 := K) (n1 := C) k (i 1)))
    + b (ix2 (n0 := 1) (n1 := C) 0 (i 1))

/-- The node stage's gate: h = relu ((x Wq + bq) ⊙ (p Wk + bk)). -/
def hS {R : Nat} (x p : Arr R 128) (Wq : Arr 128 128) (bq : Arr 1 128) (Wk : Arr 128 128) (bk : Arr 1 128) : Arr R 128 :=
  fun i => relu (lin x Wq bq i * lin p Wk bk i)

/-- The node stage's value: V = p Wv + bv. -/
def vS {R : Nat} (p : Arr R 128) (Wv : Arr 128 128) (bv : Arr 1 128) : Arr R 128 := lin p Wv bv

/-- The edge stage: msg = relu (src + relu ((relu ((ea + pe) We1 + be1) + pe) We2 + be2)). -/
def mS {R : Nat} (ea pe src : Arr R 128) (We1 : Arr 128 128) (be1 : Arr 1 128) (We2 : Arr 128 128) (be2 : Arr 1 128) : Arr R 128 :=
  fun i => relu (src i + relu (lin (fun j => relu (lin (fun l => ea l + pe l) We1 be1 j) + pe j) We2 be2 i))

/-- The output stage: out = relu (relu ((h + V) + aggr) Wh + bh) + x) Wf1 + bf1) Wf2 + bf2. -/
def oS {R : Nat} (h V aggr x : Arr R 128) (Wh : Arr 128 128) (bh : Arr 1 128) (Wf1 : Arr 128 256) (bf1 : Arr 1 256)
    (Wf2 : Arr 256 128) (bf2 : Arr 1 128) : Arr R 128 :=
  lin (fun j => relu (lin (fun l => relu (lin (fun q => (h q + V q) + aggr q) Wh bh l) + x l) Wf1 bf1 j)) Wf2 bf2

end Cert.Spec

end
-- ==== Proof.Region0.lean ====
import proofs.«406966_j19507741458638_1_alg».proof.Proof.Gen.KernelIdeal.Frame
import proofs.«406966_j19507741458638_1_alg».proof.Proof.Spec
import Idealize.ShloMosaic.Lib.Pipeline.Value
import Idealize.ShloMosaic.Lib.ValueLayout
import Idealize.ShloMosaic.PureOps.Ideal.Laws

set_option maxRecDepth 16384

noncomputable section

/-!
  The node stage on the kernel's side. The stage runs over ten grid points; at point t it loads rows
  [10000 t, 10000 (t + 1)) of the two row arrays and the whole of every weight matrix and bias row, and stores
  the gate relu ((x Wq + bq) ⊙ (p Wk + bk)) and the value p Wv + bv of those rows. Read entry by entry, what one point
  stores is the specification at 10000 rows of the loaded blocks; entry (r, q) of every stage depends only on row r of
  the row arrays, so that is rows [10000 t, 10000 (t + 1)) of the specification at 100000 rows of the whole arrays;
  and the ten row blocks cover the arrays.
-/

namespace Cert.KernelIdeal.Region0

open Idealize.ShloMosaic Idealize.ShloMosaic.TcCoe Idealize.SL.Sem Idealize.ShloMosaic.ValueIdx
open Cert.KernelIdeal Cert.KernelIdeal.Gen

/-! ## One block's product of a row block with a weight matrix, read at an index -/

theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_contr (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_contr (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (p, q) of a row block times a weight matrix, accumulated into zeros, is the sum over k of X[p, k] · W[k, q]. -/
theorem prod_at (x : FVec Ideal S10000x128 .f32) (w : FVec Ideal S128x128 .f32) (p : Fin 10000) (q : Fin 128) :
    matmul dot_S10000x128_S128x128_S10000x128_1_0_0_1_n_n none x w (constant (F := Ideal) S10000x128 .f32 0x00000000#32) (ix2 p q)
      = ∑ k : Fin 128, x (ix2 p k) * w (ix2 k q) := by
  refine (Ideal.matmul_constant_zero_apply dot_S10000x128_S128x128_S10000x128_1_0_0_1_n_n none x w (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_contr _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- A bias row spread over the block's rows reads, at (p, q), the row's entry q. -/
theorem bias_at (b : FVec Ideal S1x128 .f32) (p : Fin 10000) (q : Fin 128) :
    broadcastTo S10000x128 (shapeCast S1x128 b shapeCasts_S1x128_S1x128) broadcasts_S1x128_S10000x128 (ix2 p q)
      = b (ix2 (0 : Fin 1) q) := by
  rw [shapeCast_self]
  exact broadcastTo_1b_ab_apply b broadcasts_S1x128_S10000x128 p q

/-- The affine layer of one block: the value payload is `lin` of the loaded blocks. -/
theorem pay_v (x : Vec Ideal S10000x128 .f32) (w : Vec Ideal S128x128 .f32) (b : Vec Ideal S1x128 .f32) :
    (k0_pay1 (F := Ideal) x w b : S10000x128.Idx → EReal) = Cert.Spec.lin (R := 10000) (K := 128) (C := 128) x w b := by
  funext j
  obtain ⟨p, q, rfl⟩ : ∃ (p : Fin 10000) (q : Fin 128), j = ix2 p q := ⟨j 0, j 1, eq_ix2 j⟩
  unfold k0_pay1
  show matmul dot_S10000x128_S128x128_S10000x128_1_0_0_1_n_n none x w (constant (F := Ideal) S10000x128 .f32 0x00000000#32) (ix2 p q)
      + broadcastTo S10000x128 (shapeCast S1x128 b shapeCasts_S1x128_S1x128) broadcasts_S1x128_S10000x128 (ix2 p q) = _
  rw [prod_at, bias_at]
  rfl

/-- The gate of one block: the gate payload is `hS` of the loaded blocks. -/
theorem pay_h (x p : Vec Ideal S10000x128 .f32) (wq : Vec Ideal S128x128 .f32) (bq : Vec Ideal S1x128 .f32)
    (wk : Vec Ideal S128x128 .f32) (bk : Vec Ideal S1x128 .f32) :
    (k0_pay2 (F := Ideal) x p wq bq wk bk : S10000x128.Idx → EReal) = Cert.Spec.hS (R := 10000) x p wq bq wk bk := by
  funext j
  obtain ⟨r, q, rfl⟩ : ∃ (r : Fin 10000) (q : Fin 128), j = ix2 r q := ⟨j 0, j 1, eq_ix2 j⟩
  unfold k0_pay2
  show max ((matmul dot_S10000x128_S128x128_S10000x128_1_0_0_1_n_n none x wq (constant (F := Ideal) S10000x128 .f32 0x00000000#32) (ix2 r q)
      + broadcastTo S10000x128 (shapeCast S1x128 bq shapeCasts_S1x128_S1x128) broadcasts_S1x128_S10000x128 (ix2 r q))
      * (matmul dot_S10000x128_S128x128_S10000x128_1_0_0_1_n_n none p wk (constant (F := Ideal) S10000x128 .f32 0x00000000#32) (ix2 r q)
      + broadcastTo S10000x128 (shapeCast S1x128 bk shapeCasts_S1x128_S1x128) broadcasts_S1x128_S10000x128 (ix2 r q)))
      (Ideal.ofBits .f32 0x00000000#32) = _
  rw [prod_at, bias_at, prod_at, bias_at]
  rfl

/-! ## What the body leaves in an output window's buffer, as the specification of the loaded blocks -/

theorem zeros : (![0, 0] : Fin 2 → Nat) = fun _ => 0 := funext fun a => by
  match a with
  | ⟨0, _⟩ => rfl
  | ⟨1, _⟩ => rfl

/-- The gate window's buffer after the body is `hS` of the input windows' blocks. -/
theorem body_h (x0 x1 : Vec Ideal S10000x128 .f32) (x2 : Vec Ideal S128x128 .f32) (x3 : Vec Ideal S1x128 .f32)
    (x4 : Vec Ideal S128x128 .f32) (x5 : Vec Ideal S1x128 .f32) (x6 : Vec Ideal S128x128 .f32) (x7 : Vec Ideal S1x128 .f32) :
    (out0_8 (F := Ideal) x0 x1 x2 x3 x4 x5 x6 x7 : S10000x128.Idx → EReal) = Cert.Spec.hS (R := 10000) x0 x1 x2 x3 x4 x5 := by
  unfold out0_8
  rw [View.canon_unit_zero zeros]
  simp only [View.ld_unit_zero (S := S10000x128) zeros, View.ld_unit_zero (S := S128x128) zeros, View.ld_unit_zero (S := S1x128) zeros]
  exact pay_h x0 x1 x2 x3 x4 x5

/-- The value window's buffer after the body is `vS` of the input windows' blocks. -/
theorem body_v (x0 x1 : Vec Ideal S10000x128 .f32) (x2 : Vec Ideal S128x128 .f32) (x3 : Vec Ideal S1x128 .f32)
    (x4 : Vec Ideal S128x128 .f32) (x5 : Vec Ideal S1x128 .f32) (x6 : Vec Ideal S128x128 .f32) (x7 : Vec Ideal S1x128 .f32) :
    (out0_9 (F := Ideal) x0 x1 x2 x3 x4 x5 x6 x7 : S10000x128.Idx → EReal) = Cert.Spec.vS (R := 10000) x1 x6 x7 := by
  unfold out0_9
  rw [View.canon_unit_zero zeros]
  simp only [View.ld_unit_zero (S := S10000x128) zeros, View.ld_unit_zero (S := S128x128) zeros, View.ld_unit_zero (S := S1x128) zeros]
  exact pay_v x1 x6 x7

/-! ## A row block of the specification is the specification of the row blocks -/

/-- Entry (r, q) of an affine layer depends on row r of the row array only: if row r of `x` is row r' of `X`,
    the layer of `x` at (r, q) is the layer of `X` at (r', q). -/
theorem lin_rows {n N : Nat} (x : Cert.Spec.Arr n 128) (X : Cert.Spec.Arr N 128) (W : Cert.Spec.Arr 128 128) (b : Cert.Spec.Arr 1 128)
    (r : Fin n) (r' : Fin N) (q : Fin 128) (hx : ∀ k : Fin 128, x (ix2 r k) = X (ix2 r' k)) :
    Cert.Spec.lin x W b (ix2 r q) = Cert.Spec.lin X W b (ix2 r' q) := by
  show (∑ k : Fin 128, x (ix2 r k) * W (ix2 k q)) + b (ix2 0 q) = (∑ k : Fin 128, X (ix2 r' k) * W (ix2 k q)) + b (ix2 0 q)
  simp only [hx]

theorem hS_rows {n N : Nat} (x p : Cert.Spec.Arr n 128) (X P : Cert.Spec.Arr N 128) (Wq : Cert.Spec.Arr 128 128) (bq : Cert.Spec.Arr 1 128)
    (Wk : Cert.Spec.Arr 128 128) (bk : Cert.Spec.Arr 1 128)
    (r : Fin n) (r' : Fin N) (q : Fin 128) (hx : ∀ k : Fin 128, x (ix2 r k) = X (ix2 r' k)) (hp : ∀ k : Fin 128, p (ix2 r k) = P (ix2 r' k)) :
    Cert.Spec.hS x p Wq bq Wk bk (ix2 r q) = Cert.Spec.hS X P Wq bq Wk bk (ix2 r' q) := by
  show Cert.Spec.relu (Cert.Spec.lin x Wq bq (ix2 r q) * Cert.Spec.lin p Wk bk (ix2 r q))
    = Cert.Spec.relu (Cert.Spec.lin X Wq bq (ix2 r' q) * Cert.Spec.lin P Wk bk (ix2 r' q))
  rw [lin_rows x X Wq bq r r' q hx, lin_rows p P Wk bk r r' q hp]

variable (V : (c : Dev nD) → (b : Ref sig .tc) → Buf (Elt Ideal) ((c : Thread nD τ).loc b))

/-! ## The windows' blocks as rows of the arrays -/

/-- The printed index maps, decided over the grid: the row windows move with the grid along the rows, at most nine blocks
    down; the weight and bias windows stay at block (0, 0). -/
theorem idx_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_9.index t (0 : Fin 2) = win0_8.index t (0 : Fin 2) ∧ win0_9.index t (1 : Fin 2) = 0
    ∧ win0_8.index t (0 : Fin 2) ≤ 9 ∧ win0_8.index t (1 : Fin 2) = 0 :=
  (by decide +kernel : ∀ t : Fin grid0.N, _)

/-- Every row block is some point's. -/
theorem idx_onto : ∀ q0 : Fin 10, ∃ t : Fin cfg0.N, win0_8.index t = ![q0.val, 0] ∧ win0_9.index t = ![q0.val, 0] :=
  (by decide +kernel : ∀ q0 : Fin 10, ∃ t : Fin grid0.N, win0_8.index t = ![q0.val, 0] ∧ win0_9.index t = ![q0.val, 0])

/-- Row r of the x window's block at point t is row (block index · 10000 + r) of the x array. -/
theorem blk_x (c : Dev nD) (t : Fin cfg0.N) (r : Fin 10000) (k : Fin 128) (h : win0_8.index t (0 : Fin 2) * 10000 + r.val < 100000) :
    (iblk0 V c 0 t : Vec Ideal S10000x128 .f32) (ix2 r k)
      = (V c main_arg0 : S100000x128.Idx → EReal) (ix2 ⟨win0_8.index t (0 : Fin 2) * 10000 + r.val, h⟩ k) := by
  obtain ⟨e00, e01, -⟩ := idx_facts t
  unfold iblk0
  rw [View.read_apply]
  show V c main_arg0 _ = V c main_arg0 _
  congr 1
  funext a
  apply Fin.ext
  match a with
  | ⟨0, _⟩ => show win0_0.index t (0 : Fin 2) * 10000 + 1 * r.val = win0_8.index t (0 : Fin 2) * 10000 + r.val; omega
  | ⟨1, _⟩ => show win0_0.index t (1 : Fin 2) * 128 + 1 * k.val = k.val; omega

/-- Row r of the prompt window's block at point t is row (block index · 10000 + r) of the prompt array. -/
theorem blk_p (c : Dev nD) (t : Fin cfg0.N) (r : Fin 10000) (k : Fin 128) (h : win0_8.index t (0 : Fin 2) * 10000 + r.val < 100000) :
    (iblk0 V c 1 t : Vec Ideal S10000x128 .f32) (ix2 r k)
      = (V c main_arg1 : S100000x128.Idx → EReal) (ix2 ⟨win0_8.index t (0 : Fin 2) * 10000 + r.val, h⟩ k) := by
  obtain ⟨-, -, e10, e11, -⟩ := idx_facts t
  unfold iblk0
  rw [View.read_apply]
  show V c main_arg1 _ = V c main_arg1 _
  congr 1
  funext a
  apply Fin.ext
  match a with
  | ⟨0, _⟩ => show win0_1.index t (0 : Fin 2) * 10000 + 1 * r.val = win0_8.index t (0 : Fin 2) * 10000 + r.val; omega
  | ⟨1, _⟩ => show win0_1.index t (1 : Fin 2) * 128 + 1 * k.val = k.val; omega

/-- The query weights' window holds the whole weight matrix at every point. -/
theorem blk_wq (c : Dev nD) (t : Fin cfg0.N) : (iblk0 V c 2 t : Vec Ideal S128x128 .f32) = V c main_arg4 := by
  obtain ⟨-, -, -, -, e20, e21, e30, e31, e40, e41, e50, e51, e60, e61, e70, e71, -⟩ := idx_facts t
  funext j
  unfold iblk0
  rw [View.read_apply]
  show V c main_arg4 _ = V c main_arg4 _
  congr 1
  funext a
  apply Fin.ext
  match a with
  | ⟨0, _⟩ => show win0_2.index t (0 : Fin 2) * 128 + 1 * (j 0).val = (j 0).val; omega
  | ⟨1, _⟩ => show win0_2.index t (1 : Fin 2) * 128 + 1 * (j 1).val = (j 1).val; omega

/-- The query bias row's window holds the whole row at every point. -/
theorem blk_bq (c : Dev nD) (t : Fin cfg0.N) : (iblk0 V c 3 t : Vec Ideal S1x128 .f32) = V c main_v0 := by
  obtain ⟨-, -, -, -, e20, e21, e30, e31, e40, e41, e50, e51, e60, e61, e70, e71, -⟩ := idx_facts t
  funext j
  unfold iblk0
  rw [View.read_apply]
  show V c main_v0 _ = V c main_v0 _
  congr 1
  funext a
  apply Fin.ext
  match a with
  | ⟨0, _⟩ => show win0_3.index t (0 : Fin 2) * 1 + 1 * (j 0).val = (j 0).val; omega
  | ⟨1, _⟩ => show win0_3.index t (1 : Fin 2) * 128 + 1 * (j 1).val = (j 1).val; omega

/-- The key weights' window holds the whole weight matrix at every point. -/
theorem blk_wk (c : Dev nD) (t : Fin cfg0.N) : (iblk0 V c 4 t : Vec Ideal S128x128 .f32) = V c main_arg6 := by
  obtain ⟨-, -, -, -, e20, e21, e30, e31, e40, e41, e50, e51, e60, e61, e70, e71, -⟩ := idx_facts t
  funext j
  unfold iblk0
  rw [View.read_apply]
  show V c main_arg6 _ = V c main_arg6 _
  congr 1
  funext a
  apply Fin.ext
  match a with
  | ⟨0, _⟩ => show win0_4.index t (0 : Fin 2) * 128 + 1 * (j 0).val = (j 0).val; omega
  | ⟨1, _⟩ => show win0_4.index t (1 : Fin 2) * 128 + 1 * (j 1).val = (j 1).val; omega

/-- The key bias row's window holds the whole row at every point. -/
theorem blk_bk (c : Dev nD) (t : Fin cfg0.N) : (iblk0 V c 5 t : Vec Ideal S1x128 .f32) = V c main_v1 := by
  obtain ⟨-, -, -, -, e20, e21, e30, e31, e40, e41, e50, e51, e60, e61, e70, e71, -⟩ := idx_facts t
  funext j
  unfold iblk0
  rw [View.read_apply]
  show V c main_v1 _ = V c main_v1 _
  congr 1
  funext a
  apply Fin.ext
  match a with
  | ⟨0, _⟩ => show win0_5.index t (0 : Fin 2) * 1 + 1 * (j 0).val = (j 0).val; omega
  | ⟨1, _⟩ => show win0_5.index t (1 : Fin 2) * 128 + 1 * (j 1).val = (j 1).val; omega

/-- The value weights' window holds the whole weight matrix at every point. -/
theorem blk_wv (c : Dev nD) (t : Fin cfg0.N) : (iblk0 V c 6 t : Vec Ideal S128x128 .f32) = V c main_arg8 := by
  obtain ⟨-, -, -, -, e20, e21, e30, e31, e40, e41, e50, e51, e60, e61, e70, e71, -⟩ := idx_facts t
  funext j
  unfold iblk0
  rw [View.read_apply]
  show V c main_arg8 _ = V c main_arg8 _
  congr 1
  funext a
  apply Fin.ext
  match a with
  | ⟨0, _⟩ => show win0_6.index t (0 : Fin 2) * 128 + 1 * (j 0).val = (j 0).val; omega
  | ⟨1, _⟩ => show win0_6.index t (1 : Fin 2) * 128 + 1 * (j 1).val = (j 1).val; omega

/-- The value bias row's window holds the whole row at every point. -/
theorem blk_bv (c : Dev nD) (t : Fin cfg0.N) : (iblk0 V c 7 t : Vec Ideal S1x128 .f32) = V c main_v2 := by
  obtain ⟨-, -, -, -, e20, e21, e30, e31, e40, e41, e50, e51, e60, e61, e70, e71, -⟩ := idx_facts t
  funext j
  unfold iblk0
  rw [View.read_apply]
  show V c main_v2 _ = V c main_v2 _
  congr 1
  funext a
  apply Fin.ext
  match a with
  | ⟨0, _⟩ => show win0_7.index t (0 : Fin 2) * 1 + 1 * (j 0).val = (j 0).val; omega
  | ⟨1, _⟩ => show win0_7.index t (1 : Fin 2) * 128 + 1 * (j 1).val = (j 1).val; omega

/-! ## What a point writes back is its row block of the specification of the arrays -/

/-- Point t writes back, to the gate array, block t of `hS` of the input arrays. -/
theorem flushed_h (c : Dev nD) (t : Fin cfg0.N) :
    (dat0 (F := Ideal) V c).flushed 8 t = ((cfg0.win 8).blk t).view.read (Elt Ideal)
      (Cert.Spec.hS (R := 100000) (V c main_arg0) (V c main_arg1) (V c main_arg4) (V c main_v0) (V c main_arg6) (V c main_v1)) := by
  show (cfg0.win 8).cut (grid0.coords t) ((dat0 V c).after 8 t) = _
  rw [after0_8, body_h (iblk0 V c 0 t) (iblk0 V c 1 t) (iblk0 V c 2 t) (iblk0 V c 3 t) (iblk0 V c 4 t) (iblk0 V c 5 t) (iblk0 V c 6 t) (iblk0 V c 7 t),
    blk_wq V c t, blk_bq V c t, blk_wk V c t, blk_bk V c t]
  have e := idx_facts t
  have e80 : win0_8.index t (0 : Fin 2) ≤ 9 := e.2.2.2.2.2.2.2.2.2.2.2.2.2.2.2.2.2.2.1
  have e81 : win0_8.index t (1 : Fin 2) = 0 := e.2.2.2.2.2.2.2.2.2.2.2.2.2.2.2.2.2.2.2
  funext j
  have hj0 : (j 0).val < 10000 := (j 0).isLt
  have hj1 : (j 1).val < 128 := (j 1).isLt
  have hr : win0_8.index t (0 : Fin 2) * 10000 + (j 0).val < 100000 := by omega
  have hemb : ((cfg0.win 8).blk t).view.emb j
      = ix2 (n0 := 100000) (n1 := 128) ⟨win0_8.index t (0 : Fin 2) * 10000 + (j 0).val, hr⟩ ⟨(j 1).val, hj1⟩ := by
    funext a
    apply Fin.ext
    match a with
    | ⟨0, _⟩ => show win0_8.index t (0 : Fin 2) * 10000 + 1 * (j 0).val = win0_8.index t (0 : Fin 2) * 10000 + (j 0).val; omega
    | ⟨1, _⟩ => show win0_8.index t (1 : Fin 2) * 128 + 1 * (j 1).val = (j 1).val; omega
  show Cert.Spec.hS (R := 10000) (iblk0 V c 0 t) (iblk0 V c 1 t) (V c main_arg4) (V c main_v0) (V c main_arg6) (V c main_v1) j
    = Cert.Spec.hS (R := 100000) (V c main_arg0) (V c main_arg1) (V c main_arg4) (V c main_v0) (V c main_arg6) (V c main_v1) (((cfg0.win 8).blk t).view.emb j)
  rw [hemb]
  refine (congrArg (Cert.Spec.hS (R := 10000) (iblk0 V c 0 t) (iblk0 V c 1 t) (V c main_arg4) (V c main_v0) (V c main_arg6) (V c main_v1))
    (eq_ix2 (n0 := 10000) (n1 := 128) j)).trans ?_
  exact hS_rows (iblk0 V c 0 t) (iblk0 V c 1 t) (V c main_arg0) (V c main_arg1) (V c main_arg4) (V c main_v0) (V c main_arg6) (V c main_v1)
    ⟨(j 0).val, hj0⟩ ⟨win0_8.index t (0 : Fin 2) * 10000 + (j 0).val, hr⟩ ⟨(j 1).val, hj1⟩
    (fun k => blk_x V c t ⟨(j 0).val, hj0⟩ k hr) (fun k => blk_p V c t ⟨(j 0).val, hj0⟩ k hr)

/-- Point t writes back, to the value array, block t of `vS` of the input arrays. -/
theorem flushed_v (c : Dev nD) (t : Fin cfg0.N) :
    (dat0 (F := Ideal) V c).flushed 9 t = ((cfg0.win 9).blk t).view.read (Elt Ideal)
      (Cert.Spec.vS (R := 100000) (V c main_arg1) (V c main_arg8) (V c main_v2)) := by
  show (cfg0.win 9).cut (grid0.coords t) ((dat0 V c).after 9 t) = _
  rw [after0_9, body_v (iblk0 V c 0 t) (iblk0 V c 1 t) (iblk0 V c 2 t) (iblk0 V c 3 t) (iblk0 V c 4 t) (iblk0 V c 5 t) (iblk0 V c 6 t) (iblk0 V c 7 t),
    blk_wv V c t, blk_bv V c t]
  have e := idx_facts t
  have e90 : win0_9.index t (0 : Fin 2) = win0_8.index t (0 : Fin 2) := e.2.2.2.2.2.2.2.2.2.2.2.2.2.2.2.2.1
  have e91 : win0_9.index t (1 : Fin 2) = 0 := e.2.2.2.2.2.2.2.2.2.2.2.2.2.2.2.2.2.1
  have e80 : win0_8.index t (0 : Fin 2) ≤ 9 := e.2.2.2.2.2.2.2.2.2.2.2.2.2.2.2.2.2.2.1
  funext j
  have hj0 : (j 0).val < 10000 := (j 0).isLt
  have hj1 : (j 1).val < 128 := (j 1).isLt
  have hr : win0_8.index t (0 : Fin 2) * 10000 + (j 0).val < 100000 := by omega
  have hemb : ((cfg0.win 9).blk t).view.emb j
      = ix2 (n0 := 100000) (n1 := 128) ⟨win0_8.index t (0 : Fin 2) * 10000 + (j 0).val, hr⟩ ⟨(j 1).val, hj1⟩ := by
    funext a
    apply Fin.ext
    match a with
    | ⟨0, _⟩ => show win0_9.index t (0 : Fin 2) * 10000 + 1 * (j 0).val = win0_8.index t (0 : Fin 2) * 10000 + (j 0).val; omega
    | ⟨1, _⟩ => show win0_9.index t (1 : Fin 2) * 128 + 1 * (j 1).val = (j 1).val; omega
  show Cert.Spec.lin (R := 10000) (iblk0 V c 1 t) (V c main_arg8) (V c main_v2) j
    = Cert.Spec.lin (R := 100000) (V c main_arg1) (V c main_arg8) (V c main_v2) (((cfg0.win 9).blk t).view.emb j)
  rw [hemb]
  refine (congrArg (Cert.Spec.lin (R := 10000) (iblk0 V c 1 t) (V c main_arg8) (V c main_v2))
    (eq_ix2 (n0 := 10000) (n1 := 128) j)).trans ?_
  exact lin_rows (iblk0 V c 1 t) (V c main_arg1) (V c main_arg8) (V c main_v2)
    ⟨(j 0).val, hj0⟩ ⟨win0_8.index t (0 : Fin 2) * 10000 + (j 0).val, hr⟩ ⟨(j 1).val, hj1⟩
    (fun k => blk_p V c t ⟨(j 0).val, hj0⟩ k hr)

/-! ## The ten row blocks cover the arrays -/

/-- An index of the gate array is in point t's block iff each coordinate is in the block's range on its axis. -/
theorem mem_blk_h (t : Fin cfg0.N) (i : S100000x128.Idx) :
    i ∈ ((cfg0.win 8).blk t).view.set ↔ ∀ a : Fin 2, win0_8.index t a * S10000x128.size a ≤ (i a).val ∧ (i a).val < win0_8.index t a * S10000x128.size a + S10000x128.size a := by
  show i ∈ ((View.whole main_v3_0).slice (win0_8.rect t)).set ↔ _
  rw [View.set_slice_whole, Rect.mem_set_unit]
  exact Iff.rfl

/-- An index of the value array is in point t's block iff each coordinate is in the block's range on its axis. -/
theorem mem_blk_v (t : Fin cfg0.N) (i : S100000x128.Idx) :
    i ∈ ((cfg0.win 9).blk t).view.set ↔ ∀ a : Fin 2, win0_9.index t a * S10000x128.size a ≤ (i a).val ∧ (i a).val < win0_9.index t a * S10000x128.size a + S10000x128.size a := by
  show i ∈ ((View.whole main_v3_1).slice (win0_9.rect t)).set ↔ _
  rw [View.set_slice_whole, Rect.mem_set_unit]
  exact Iff.rfl

/-- Row r of the gate array is in the block of the point whose block index is r / 10000. -/
theorem cover_h (i : S100000x128.Idx) : ∃ t : Fin cfg0.N, (cfg0.win 8).flush t = true ∧ i ∈ ((cfg0.win 8).blk t).view.set := by
  have hi0 : (i 0).val < 100000 := (i 0).isLt
  have hi1 : (i 1).val < 128 := (i 1).isLt
  obtain ⟨t, ht, -⟩ := idx_onto ⟨(i 0).val / 10000, by omega⟩
  have q0 : win0_8.index t (0 : Fin 2) = (i 0).val / 10000 := congrFun ht 0
  have q1 : win0_8.index t (1 : Fin 2) = 0 := congrFun ht 1
  refine ⟨t, flush0_8 t, ?_⟩
  rw [mem_blk_h]
  intro a
  match a with
  | ⟨0, _⟩ => show win0_8.index t (0 : Fin 2) * 10000 ≤ (i 0).val ∧ (i 0).val < win0_8.index t (0 : Fin 2) * 10000 + 10000; omega
  | ⟨1, _⟩ => show win0_8.index t (1 : Fin 2) * 128 ≤ (i 1).val ∧ (i 1).val < win0_8.index t (1 : Fin 2) * 128 + 128; omega

/-- Row r of the value array is in the block of the point whose block index is r / 10000. -/
theorem cover_v (i : S100000x128.Idx) : ∃ t : Fin cfg0.N, (cfg0.win 9).flush t = true ∧ i ∈ ((cfg0.win 9).blk t).view.set := by
  have hi0 : (i 0).val < 100000 := (i 0).isLt
  have hi1 : (i 1).val < 128 := (i 1).isLt
  obtain ⟨t, -, ht⟩ := idx_onto ⟨(i 0).val / 10000, by omega⟩
  have q0 : win0_9.index t (0 : Fin 2) = (i 0).val / 10000 := congrFun ht 0
  have q1 : win0_9.index t (1 : Fin 2) = 0 := congrFun ht 1
  refine ⟨t, flush0_9 t, ?_⟩
  rw [mem_blk_v]
  intro a
  match a with
  | ⟨0, _⟩ => show win0_9.index t (0 : Fin 2) * 10000 ≤ (i 0).val ∧ (i 0).val < win0_9.index t (0 : Fin 2) * 10000 + 10000; omega
  | ⟨1, _⟩ => show win0_9.index t (1 : Fin 2) * 128 ≤ (i 1).val ∧ (i 1).val < win0_9.index t (1 : Fin 2) * 128 + 128; omega

/-! ## The arrays after the region -/

/-- After the node stage's ten grid points the gate array holds `hS` of the stage's input arrays as the region found them. -/
theorem final_h (c : Dev nD) :
    (dat0 (F := Ideal) V c).arrAt 8 cfg0.N
      = Cert.Spec.hS (R := 100000) (V c main_arg0) (V c main_arg1) (V c main_arg4) (V c main_v0) (V c main_arg6) (V c main_v1) :=
  (dat0 (F := Ideal) V c).arrAt_eq_of_cover 8
    (Cert.Spec.hS (R := 100000) (V c main_arg0) (V c main_arg1) (V c main_arg4) (V c main_v0) (V c main_arg6) (V c main_v1))
    (fun t _ => flushed_h V c t) cover_h

/-- After the node stage's ten grid points the value array holds `vS` of the stage's input arrays as the region found them. -/
theorem final_v (c : Dev nD) :
    (dat0 (F := Ideal) V c).arrAt 9 cfg0.N
      = Cert.Spec.vS (R := 100000) (V c main_arg1) (V c main_arg8) (V c main_v2) :=
  (dat0 (F := Ideal) V c).arrAt_eq_of_cover 9
    (Cert.Spec.vS (R := 100000) (V c main_arg1) (V c main_arg8) (V c main_v2))
    (fun t _ => flushed_v V c t) cover_v

end Cert.KernelIdeal.Region0

end
-- ==== Proof.Region1.lean ====
import proofs.«406966_j19507741458638_1_alg».proof.Proof.Gen.KernelIdeal.Frame
import proofs.«406966_j19507741458638_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Cert.KernelIdeal Cert.KernelIdeal.Gen

/-! ## The edge stage's matrix product at an index -/

theorem mm_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem mm_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem mm_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem mm_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block of rows times a weight matrix, accumulated into zero: entry (p, q) is the sum over k of X[p, k] · W[k, q]. -/
theorem mm_apply (X : FVec Ideal S10000x128 .f32) (W : FVec Ideal S128x128 .f32) (p : Fin 10000) (q : Fin 128) :
    matmul dot_S10000x128_S128x128_S10000x128_1_0_0_1_n_n none X W (constant (F := Ideal) S10000x128 .f32 0x00000000#32) (ix2 p q)
      = ∑ k : Fin 128, X (ix2 p k) * W (ix2 k q) := by
  refine (Ideal.matmul_constant_zero_apply dot_S10000x128_S128x128_S10000x128_1_0_0_1_n_n none X W (ix2 p q)).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact mm_lhs_0 _ _
    | ⟨1, _⟩ => exact (mm_lhs_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (mm_rhs_0 _ _).trans hk
    | ⟨1, _⟩ => exact mm_rhs_1 _ _)
  rw [el, er]

/-! ## The body's arithmetic is the edge stage on a block of rows -/

/-- The edge stage at entry (p, q), written out. -/
theorem mS_apply {R : Nat} (ea pe src : Cert.Spec.Arr R 128) (We1 : Cert.Spec.Arr 128 128) (be1 : Cert.Spec.Arr 1 128)
    (We2 : Cert.Spec.Arr 128 128) (be2 : Cert.Spec.Arr 1 128) (p : Fin R) (q : Fin 128) :
    Cert.Spec.mS ea pe src We1 be1 We2 be2 (ix2 p q)
      = max (src (ix2 p q) + max ((∑ k : Fin 128, (max ((∑ l : Fin 128, (ea (ix2 p l) + pe (ix2 p l)) * We1 (ix2 l k)) + be1 (ix2 0 k)) Cert.Spec.z + pe (ix2 p k)) * We2 (ix2 k q)) + be2 (ix2 0 q)) Cert.Spec.z) Cert.Spec.z := rfl

/-- What the body stores for a block of 10000 rows is the edge stage of the loaded blocks. -/
theorem pay_eq (x0 x1 x2 : Vec Ideal S10000x128 .f32) (x3 : Vec Ideal S128x128 .f32) (x4 : Vec Ideal S1x128 .f32)
    (x5 : Vec Ideal S128x128 .f32) (x6 : Vec Ideal S1x128 .f32) :
    k1_pay1 (F := Ideal) x0 x1 x2 x3 x4 x5 x6 = Cert.Spec.mS (R := 10000) x0 x1 x2 x3 x4 x5 x6 := by
  funext j
  obtain ⟨p, q, rfl⟩ : ∃ (p : Fin 10000) (q : Fin 128), j = ix2 p q := ⟨j 0, j 1, eq_ix2 j⟩
  rw [mS_apply]
  unfold k1_pay1
  simp only [maximumf_apply, addf_apply, broadcast_apply, shapeCast_self, mm_apply, broadcastTo_1b_ab_apply]
  rfl

/-! ## A block of rows of the edge stage is the edge stage of the blocks -/

/-- Entry (r, q) of every stage depends only on row r of the three row arrays and on the whole weight and bias
    arrays: rows [n · 10000, (n + 1) · 10000) of the stage of the whole arrays are the stage of those rows. -/
theorem mS_rows (ea pe src : Cert.Spec.Arr 800000 128) (We1 : Cert.Spec.Arr 128 128) (be1 : Cert.Spec.Arr 1 128)
    (We2 : Cert.Spec.Arr 128 128) (be2 : Cert.Spec.Arr 1 128) (ea' pe' src' : Cert.Spec.Arr 10000 128)
    (n : Nat) (hn : n < 80)
    (hea : ∀ (p : Fin 10000) (k : Fin 128), ea' (ix2 p k) = ea (ix2 (⟨n * 10000 + p.val, by have := p.isLt; omega⟩ : Fin 800000) k))
    (hpe : ∀ (p : Fin 10000) (k : Fin 128), pe' (ix2 p k) = pe (ix2 (⟨n * 10000 + p.val, by have := p.isLt; omega⟩ : Fin 800000) k))
    (hsrc : ∀ (p : Fin 10000) (k : Fin 128), src' (ix2 p k) = src (ix2 (⟨n * 10000 + p.val, by have := p.isLt; omega⟩ : Fin 800000) k))
    (p : Fin 10000) (q : Fin 128) :
    Cert.Spec.mS (R := 10000) ea' pe' src' We1 be1 We2 be2 (ix2 p q)
      = Cert.Spec.mS (R := 800000) ea pe src We1 be1 We2 be2 (ix2 (⟨n * 10000 + p.val, by have := p.isLt; omega⟩ : Fin 800000) q) := by
  rw [mS_apply, mS_apply]
  simp only [hea, hpe, hsrc]

/-! ## From the blocks to the array -/

theorem hz : (![0, 0] : Fin 2 → Nat) = fun _ => 0 := funext fun a => by fin_cases a <;> rfl

/-- The windows' index maps over the grid: the three row windows and the output window are at block (t, 0), the weight
    and bias windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- A row window's block at point t is rows [t · 10000, (t + 1) · 10000) of its array. -/
theorem blk_rows_0 (c : Dev nD) (t : Fin cfg1.N) (p : Fin 10000) (k : Fin 128) :
    (iblk1 V c 0 t : Vec Ideal S10000x128 .f32) (ix2 p k)
      = (V c main_arg3 : S800000x128.Idx → EReal) (ix2 (⟨t.val * 10000 + p.val, by have := p.isLt; have := t.isLt; have : cfg1.N = 80 := rfl; omega⟩ : Fin 800000) k) := by
  obtain ⟨e00, e01, e10, e11, e20, e21, -⟩ := idx_facts t
  unfold iblk1
  rw [View.read_apply]
  show V c main_arg3 _ = V c main_arg3 _
  congr 1
  funext a
  apply Fin.ext
  match a with
  | ⟨0, _⟩ => show win1_0.index t (0 : Fin 2) * 10000 + 1 * p.val = t.val * 10000 + p.val; rw [e00]; omega
  | ⟨1, _⟩ => show win1_0.index t (1 : Fin 2) * 128 + 1 * k.val = k.val; rw [e01]; omega

theorem blk_rows_1 (c : Dev nD) (t : Fin cfg1.N) (p : Fin 10000) (k : Fin 128) :
    (iblk1 V c 1 t : Vec Ideal S10000x128 .f32) (ix2 p k)
      = (V c main_arg2 : S800000x128.Idx → EReal) (ix2 (⟨t.val * 10000 + p.val, by have := p.isLt; have := t.isLt; have : cfg1.N = 80 := rfl; omega⟩ : Fin 800000) k) := by
  obtain ⟨e00, e01, e10, e11, e20, e21, -⟩ := idx_facts t
  unfold iblk1
  rw [View.read_apply]
  show V c main_arg2 _ = V c main_arg2 _
  congr 1
  funext a
  apply Fin.ext
  match a with
  | ⟨0, _⟩ => show win1_1.index t (0 : Fin 2) * 10000 + 1 * p.val = t.val * 10000 + p.val; rw [e10]; omega
  | ⟨1, _⟩ => show win1_1.index t (1 : Fin 2) * 128 + 1 * k.val = k.val; rw [e11]; omega

theorem blk_rows_2 (c : Dev nD) (t : Fin cfg1.N) (p : Fin 10000) (k : Fin 128) :
    (iblk1 V c 2 t : Vec Ideal S10000x128 .f32) (ix2 p k)
      = (V c main_v6 : S800000x128.Idx → EReal) (ix2 (⟨t.val * 10000 + p.val, by have := p.isLt; have := t.isLt; have : cfg1.N = 80 := rfl; omega⟩ : Fin 800000) k) := by
  obtain ⟨e00, e01, e10, e11, e20, e21, -⟩ := idx_facts t
  unfold iblk1
  rw [View.read_apply]
  show V c main_v6 _ = V c main_v6 _
  congr 1
  funext a
  apply Fin.ext
  match a with
  | ⟨0, _⟩ => show win1_2.index t (0 : Fin 2) * 10000 + 1 * p.val = t.val * 10000 + p.val; rw [e20]; omega
  | ⟨1, _⟩ => show win1_2.index t (1 : Fin 2) * 128 + 1 * k.val = k.val; rw [e21]; omega

/-- A weight or bias window's block is its whole array at every point. -/
theorem blk_whole_3 (c : Dev nD) (t : Fin cfg1.N) :
    (iblk1 V c 3 t : Vec Ideal S128x128 .f32) = (V c main_arg10 : S128x128.Idx → EReal) := by
  obtain ⟨-, -, -, -, -, -, e30, e31, e40, e41, e50, e51, e60, e61, -⟩ := idx_facts t
  unfold iblk1
  funext y
  rw [View.read_apply]
  show V c main_arg10 _ = V c main_arg10 y
  congr 1
  funext a
  apply Fin.ext
  match a with
  | ⟨0, _⟩ => show win1_3.index t (0 : Fin 2) * 128 + 1 * (y 0).val = (y 0).val; rw [e30]; omega
  | ⟨1, _⟩ => show win1_3.index t (1 : Fin 2) * 128 + 1 * (y 1).val = (y 1).val; rw [e31]; omega

theorem blk_whole_4 (c : Dev nD) (t : Fin cfg1.N) :
    (iblk1 V c 4 t : Vec Ideal S1x128 .f32) = (V c main_v7 : S1x128.Idx → EReal) := by
  obtain ⟨-, -, -, -, -, -, e30, e31, e40, e41, e50, e51, e60, e61, -⟩ := idx_facts t
  unfold iblk1
  funext y
  rw [View.read_apply]
  show V c main_v7 _ = V c main_v7 y
  congr 1
  funext a
  apply Fin.ext
  match a with
  | ⟨0, _⟩ => show win1_4.index t (0 : Fin 2) * 1 + 1 * (y 0).val = (y 0).val; rw [e40]; omega
  | ⟨1, _⟩ => show win1_4.index t (1 : Fin 2) * 128 + 1 * (y 1).val = (y 1).val; rw [e41]; omega

theorem blk_whole_5 (c : Dev nD) (t : Fin cfg1.N) :
    (iblk1 V c 5 t : Vec Ideal S128x128 .f32) = (V c main_arg12 : S128x128.Idx → EReal) := by
  obtain ⟨-, -, -, -, -, -, e30, e31, e40, e41, e50, e51, e60, e61, -⟩ := idx_facts t
  unfold iblk1
  funext y
  rw [View.read_apply]
  show V c main_arg12 _ = V c main_arg12 y
  congr 1
  funext a
  apply Fin.ext
  match a with
  | ⟨0, _⟩ => show win1_5.index t (0 : Fin 2) * 128 + 1 * (y 0).val = (y 0).val; rw [e50]; omega
  | ⟨1, _⟩ => show win1_5.index t (1 : Fin 2) * 128 + 1 * (y 1).val = (y 1).val; rw [e51]; omega

theorem blk_whole_6 (c : Dev nD) (t : Fin cfg1.N) :
    (iblk1 V c 6 t : Vec Ideal S1x128 .f32) = (V c main_v8 : S1x128.Idx → EReal) := by
  obtain ⟨-, -, -, -, -, -, e30, e31, e40, e41, e50, e51, e60, e61, -⟩ := idx_facts t
  unfold iblk1
  funext y
  rw [View.read_apply]
  show V c main_v8 _ = V c main_v8 y
  congr 1
  funext a
  apply Fin.ext
  match a with
  | ⟨0, _⟩ => show win1_6.index t (0 : Fin 2) * 1 + 1 * (y 0).val = (y 0).val; rw [e60]; omega
  | ⟨1, _⟩ => show win1_6.index t (1 : Fin 2) * 128 + 1 * (y 1).val = (y 1).val; rw [e61]; omega

/-- What point t writes back is block t of the edge stage of the arrays as the region found them. -/
theorem flushed_msg (c : Dev nD) (t : Fin cfg1.N) :
    (dat1 (F := Ideal) V c).flushed 7 t = ((cfg1.win 7).blk t).view.read (Elt Ideal)
      (Cert.Spec.mS (R := 800000) (V c main_arg3) (V c main_arg2) (V c main_v6) (V c main_arg10) (V c main_v7) (V c main_arg12) (V c main_v8)) := by
  show (cfg1.win 7).cut (grid1.coords t) ((dat1 V c).after 7 t) = _
  rw [after1_7]
  unfold out1_7
  rw [View.canon_unit_zero hz]
  simp only [View.ld_unit_zero (S := S10000x128) hz, View.ld_unit_zero (S := S128x128) hz, View.ld_unit_zero (S := S1x128) hz]
  rw [pay_eq, blk_whole_3 V c t, blk_whole_4 V c t, blk_whole_5 V c t, blk_whole_6 V c t]
  obtain ⟨-, -, -, -, -, -, -, -, -, -, -, -, -, -, e70, e71⟩ := idx_facts t
  funext j
  obtain ⟨p, q, rfl⟩ : ∃ (p : Fin 10000) (q : Fin 128), j = ix2 p q := ⟨j 0, j 1, eq_ix2 j⟩
  refine (mS_rows (V c main_arg3) (V c main_arg2) (V c main_v6) (V c main_arg10) (V c main_v7) (V c main_arg12) (V c main_v8)
    (iblk1 V c 0 t) (iblk1 V c 1 t) (iblk1 V c 2 t) t.val t.isLt (blk_rows_0 V c t) (blk_rows_1 V c t) (blk_rows_2 V c t) p q).trans ?_
  rw [View.read_apply]
  congr 1
  funext a
  apply Fin.ext
  match a with
  | ⟨0, _⟩ => show t.val * 10000 + p.val = win1_7.index t (0 : Fin 2) * 10000 + 1 * p.val; rw [e70]; omega
  | ⟨1, _⟩ => show q.val = win1_7.index t (1 : Fin 2) * 128 + 1 * q.val; rw [e71]; omega

/-- An index of the message array is in point t's block iff each coordinate is in the block's range on its axis. -/
theorem mem_blk_msg (t : Fin cfg1.N) (i : S800000x128.Idx) :
    i ∈ ((cfg1.win 7).blk t).view.set ↔ ∀ a : Fin 2, win1_7.index t a * S10000x128.size a ≤ (i a).val ∧ (i a).val < win1_7.index t a * S10000x128.size a + S10000x128.size a := by
  show i ∈ ((View.whole main_v9).slice (win1_7.rect t)).set ↔ _
  rw [View.set_slice_whole, Rect.mem_set_unit]
  exact Iff.rfl

/-- Row r of the message array is in the block of point r / 10000: the eighty blocks cover the array. -/
theorem cover_msg (i : S800000x128.Idx) :
    ∃ t : Fin cfg1.N, (cfg1.win 7).flush t = true ∧ i ∈ ((cfg1.win 7).blk t).view.set := by
  have hi0 : (i 0).val < 800000 := (i 0).isLt
  have hi1 : (i 1).val < 128 := (i 1).isLt
  obtain ⟨t, ht⟩ : ∃ t : Fin cfg1.N, t.val = (i 0).val / 10000 :=
    ⟨⟨(i 0).val / 10000, by show (i 0).val / 10000 < 80; omega⟩, rfl⟩
  obtain ⟨-, -, -, -, -, -, -, -, -, -, -, -, -, -, e70, e71⟩ := idx_facts t
  refine ⟨t, flush1_7 t, ?_⟩
  rw [mem_blk_msg]
  intro a
  match a with
  | ⟨0, _⟩ =>
    show win1_7.index t (0 : Fin 2) * 10000 ≤ (i 0).val ∧ (i 0).val < win1_7.index t (0 : Fin 2) * 10000 + 10000
    rw [e70, ht]; omega
  | ⟨1, _⟩ =>
    show win1_7.index t (1 : Fin 2) * 128 ≤ (i 1).val ∧ (i 1).val < win1_7.index t (1 : Fin 2) * 128 + 128
    rw [e71]; omega

/-- After the edge stage's eighty grid points the message array holds `mS` of the stage's input arrays as the region found them. -/
theorem final_msg (c : Dev nD) :
    (dat1 (F := Ideal) V c).arrAt 7 cfg1.N
      = Cert.Spec.mS (R := 800000) (V c main_arg3) (V c main_arg2) (V c main_v6) (V c main_arg10) (V c main_v7) (V c main_arg12) (V c main_v8) :=
  (dat1 (F := Ideal) V c).arrAt_eq_of_cover 7 _ (fun t _ => flushed_msg V c t) cover_msg

end Cert.KernelIdeal.Region1

end
-- ==== Proof.Region2.lean ====
import proofs.«406966_j19507741458638_1_alg».proof.Proof.Gen.KernelIdeal.Frame
import proofs.«406966_j19507741458638_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## The three matrix products into the zero splat, read at an index

Each product contracts the left operand's axis 1 with the right operand's axis 0: entry (p, q) is the sum over k of
left (p, k) · right (k, q). -/

theorem lhsH_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsH_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsH_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsH_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The hidden layer's product, 5000 × 128 by 128 × 128. -/
theorem mmH_apply (l : FVec Ideal S5000x128 .f32) (r : FVec Ideal S128x128 .f32) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhsH_0 _ _
    | ⟨1, _⟩ => exact (lhsH_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhsH_0 _ _).trans hk
    | ⟨1, _⟩ => exact rhsH_1 _ _)
  rw [el, er]

theorem lhsF1_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhsF1_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhsF1_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhsF1_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The first feed-forward product, 5000 × 128 by 128 × 256. -/
theorem mmF1_apply (l : FVec Ideal S5000x128 .f32) (r : FVec Ideal S128x256 .f32) (p : Fin 5000) (q : Fin 256) :
    matmul dot_S5000x128_S128x256_S5000x256_1_0_0_1_n_n none l r (constant (F := Ideal) S5000x256 .f32 0x00000000#32) (ix2 p q)
      = ∑ k : Fin 128, l (ix2 p k) * r (ix2 k q) := by
  show FloatOps.matmul dot_S5000x128_S128x256_S5000x256_1_0_0_1_n_n none l r (constant (F := Ideal) S5000x256 .f32 0x00000000#32) (ix2 p q) = _
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx (ix2 p q) ((ValueIdx.contrEquiv1 dot_S5000x128_S128x256_S5000x256_1_0_0_1_n_n 128 rfl rfl).symm k) = ix2 p k := funext fun a => Fin.ext (by
    match a with
    | ⟨0, _⟩ => exact lhsF1_0 _ _
    | ⟨1, _⟩ => exact (lhsF1_1 _ _).trans hk)
  have er : dot_S5000x128_S128x256_S5000x256_1_0_0_1_n_n.rhsIdx (ix2 p q) ((ValueIdx.contrEquiv1 dot_S5000x128_S128x256_S5000x256_1_0_0_1_n_n 128 rfl rfl).symm k) = ix2 k q := funext fun a => Fin.ext (by
    match a with
    | ⟨0, _⟩ => exact (rhsF1_0 _ _).trans hk
    | ⟨1, _⟩ => exact rhsF1_1 _ _)
  rw [el, er]

theorem lhsF2_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhsF2_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhsF2_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhsF2_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The second feed-forward product, 5000 × 256 by 256 × 128. -/
theorem mmF2_apply (l : FVec Ideal S5000x256 .f32) (r : FVec Ideal S256x128 .f32) (p : Fin 5000) (q : Fin 128) :
    matmul dot_S5000x256_S256x128_S5000x128_1_0_0_1_n_n none l r (constant (F := Ideal) S5000x128 .f32 0x00000000#32) (ix2 p q)
      = ∑ k : Fin 256, l (ix2 p k) * r (ix2 k q) := by
  show FloatOps.matmul dot_S5000x256_S256x128_S5000x128_1_0_0_1_n_n none l r (constant (F := Ideal) S5000x128 .f32 0x00000000#32) (ix2 p q) = _
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun a => Fin.ext (by
    match a with
    | ⟨0, _⟩ => exact lhsF2_0 _ _
    | ⟨1, _⟩ => exact (lhsF2_1 _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun a => Fin.ext (by
    match a with
    | ⟨0, _⟩ => exact (rhsF2_0 _ _).trans hk
    | ⟨1, _⟩ => exact rhsF2_1 _ _)
  rw [el, er]

/-! ## A bias row spread over the rows of a block -/

/-- A 1 × 128 bias row spread over 5000 rows reads its entry at the column. -/
theorem bias128_apply (b : FVec Ideal S1x128 .f32) (p : Fin 5000) (q : Fin 128) :
    broadcastTo S5000x128 (shapeCast S1x128 b shapeCasts_S1x128_S1x128) broadcasts_S1x128_S5000x128 (ix2 p q) = b (ix2 (0 : Fin 1) q) := by
  rw [shapeCast_self]
  exact broadcastTo_apply b broadcasts_S1x128_S5000x128 (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- A 1 × 256 bias row spread over 5000 rows reads its entry at the column. -/
theorem bias256_apply (b : FVec Ideal S1x256 .f32) (p : Fin 5000) (q : Fin 256) :
    broadcastTo S5000x256 (shapeCast S1x256 b shapeCasts_S1x256_S1x256) broadcasts_S1x256_S5000x256 (ix2 p q) = b (ix2 (0 : Fin 1) q) := by
  rw [shapeCast_self]
  exact broadcastTo_apply b broadcasts_S1x256_S5000x256 (ix2 p q) (ix2 (0 : Fin 1) q) (fun a => match a with
    | ⟨0, _⟩ => by show (0 : Nat) = if (1 : Nat) = 1 then 0 else p.val; rw [if_pos rfl]
    | ⟨1, _⟩ => by show q.val = if (256 : Nat) = 1 then 0 else q.val; rw [if_neg (by decide)])

/-! ## The three dense layers of the body are the specification's affine layer -/

/-- The hidden layer as the body spells it: the product into the zero splat plus the spread bias row. -/
def layerH (X : FVec Ideal S5000x128 .f32) (W : FVec Ideal S128x128 .f32) (b : FVec Ideal S1x128 .f32) : FVec Ideal S5000x128 .f32 :=
  addf (matmul dot_S5000x128_S128x128_S5000x128_1_0_0_1_n_n none X W (constant (F := Ideal) S5000x128 .f32 0x00000000#32))
    (broadcastTo S5000x128 (shapeCast S1x128 b shapeCasts_S1x128_S1x128) broadcasts_S1x128_S5000x128)

/-- The first feed-forward layer as the body spells it. -/
def layerF1 (X : FVec Ideal S5000x128 .f32) (W : FVec Ideal S128x256 .f32) (b : FVec Ideal S1x256 .f32) : FVec Ideal S5000x256 .f32 :=
  addf (matmul dot_S5000x128_S128x256_S5000x256_1_0_0_1_n_n none X W (constant (F := Ideal) S5000x256 .f32 0x00000000#32))
    (broadcastTo S5000x256 (shapeCast S1x256 b shapeCasts_S1x256_S1x256) broadcasts_S1x256_S5000x256)

/-- The second feed-forward layer as the body spells it. -/
def layerF2 (X : FVec Ideal S5000x256 .f32) (W : FVec Ideal S256x128 .f32) (b : FVec Ideal S1x128 .f32) : FVec Ideal S5000x128 .f32 :=
  addf (matmul dot_S5000x256_S256x128_S5000x128_1_0_0_1_n_n none X W (constant (F := Ideal) S5000x128 .f32 0x00000000#32))
    (broadcastTo S5000x128 (shapeCast S1x128 b shapeCasts_S1x128_S1x128) broadcasts_S1x128_S5000x128)

theorem layerH_eq (X : FVec Ideal S5000x128 .f32) (W : FVec Ideal S128x128 .f32) (b : FVec Ideal S1x128 .f32) :
    layerH X W b = Cert.Spec.lin (R := 5000) (K := 128) (C := 128) X W b := by
  funext j
  obtain ⟨p, q, rfl⟩ : ∃ (p : Fin 5000) (q : Fin 128), j = ix2 p q := ⟨j 0, j 1, eq_ix2 j⟩
  show matmul dot_S5000x128_S128x128_S5000x128_1_0_0_1_n_n none X W (constant (F := Ideal) S5000x128 .f32 0x00000000#32) (ix2 p q)
      + broadcastTo S5000x128 (shapeCast S1x128 b shapeCasts_S1x128_S1x128) broadcasts_S1x128_S5000x128 (ix2 p q) = _
  rw [mmH_apply, bias128_apply]
  rfl

theorem layerF1_eq (X : FVec Ideal S5000x128 .f32) (W : FVec Ideal S128x256 .f32) (b : FVec Ideal S1x256 .f32) :
    layerF1 X W b = Cert.Spec.lin (R := 5000) (K := 128) (C := 256) X W b := by
  funext j
  obtain ⟨p, q, rfl⟩ : ∃ (p : Fin 5000) (q : Fin 256), j = ix2 p q := ⟨j 0, j 1, eq_ix2 j⟩
  show matmul dot_S5000x128_S128x256_S5000x256_1_0_0_1_n_n none X W (constant (F := Ideal) S5000x256 .f32 0x00000000#32) (ix2 p q)
      + broadcastTo S5000x256 (shapeCast S1x256 b shapeCasts_S1x256_S1x256) broadcasts_S1x256_S5000x256 (ix2 p q) = _
  rw [mmF1_apply, bias256_apply]
  rfl

theorem layerF2_eq (X : FVec Ideal S5000x256 .f32) (W : FVec Ideal S256x128 .f32) (b : FVec Ideal S1x128 .f32) :
    layerF2 X W b = Cert.Spec.lin (R := 5000) (K := 256) (C := 128) X W b := by
  funext j
  obtain ⟨p, q, rfl⟩ : ∃ (p : Fin 5000) (q : Fin 128), j = ix2 p q := ⟨j 0, j 1, eq_ix2 j⟩
  show matmul dot_S5000x256_S256x128_S5000x128_1_0_0_1_n_n none X W (constant (F := Ideal) S5000x128 .f32 0x00000000#32) (ix2 p q)
      + broadcastTo S5000x128 (shapeCast S1x128 b shapeCasts_S1x128_S1x128) broadcasts_S1x128_S5000x128 (ix2 p q) = _
  rw [mmF2_apply, bias128_apply]
  rfl

/-! ## The body's arithmetic on a block of 5000 rows is the output stage at 5000 rows -/

/-- The body's value, with its three dense layers named. -/
theorem pay_layers (h v a x : Vec Ideal S5000x128 .f32) (Wh : Vec Ideal S128x128 .f32) (bh : Vec Ideal S1x128 .f32)
    (Wf1 : Vec Ideal S128x256 .f32) (bf1 : Vec Ideal S1x256 .f32) (Wf2 : Vec Ideal S256x128 .f32) (bf2 : Vec Ideal S1x128 .f32) :
    k2_pay1 (F := Ideal) h v a Wh bh x Wf1 bf1 Wf2 bf2
      = layerF2 (maximumf (layerF1 (addf (maximumf (layerH (addf (addf (shapeCast S5000x128 h shapeCasts_S5000x128_S5000x128)
            (shapeCast S5000x128 v shapeCasts_S5000x128_S5000x128)) (shapeCast S5000x128 a shapeCasts_S5000x128_S5000x128)) Wh bh)
          (broadcast S5000x128 (Scalar.ofBits (F := Ideal) .f32 0x00000000#32))) x) Wf1 bf1)
        (broadcast S5000x256 (Scalar.ofBits (F := Ideal) .f32 0x00000000#32))) Wf2 bf2 := rfl

/-- The body's value on a block is the output stage of the block's rows. -/
theorem pay_eq (h v a x : Vec Ideal S5000x128 .f32) (Wh : Vec Ideal S128x128 .f32) (bh : Vec Ideal S1x128 .f32)
    (Wf1 : Vec Ideal S128x256 .f32) (bf1 : Vec Ideal S1x256 .f32) (Wf2 : Vec Ideal S256x128 .f32) (bf2 : Vec Ideal S1x128 .f32) :
    k2_pay1 (F := Ideal) h v a Wh bh x Wf1 bf1 Wf2 bf2 = Cert.Spec.oS (R := 5000) h v a x Wh bh Wf1 bf1 Wf2 bf2 := by
  rw [pay_layers, layerF2_eq, layerF1_eq, layerH_eq, shapeCast_self, shapeCast_self, shapeCast_self]
  rfl

/-! ## Entry (r, c) of an affine layer reads only row r of its input -/

/-- Two inputs that agree on one row give affine layers that agree on that row. -/
theorem lin_row {R R' K C : Nat} (X : Cert.Spec.Arr R K) (X' : Cert.Spec.Arr R' K) (W : Cert.Spec.Arr K C) (b : Cert.Spec.Arr 1 C)
    (r : Fin R) (r' : Fin R') (q : Fin C)
    (hX : ∀ k : Fin K, X (ix2 (n0 := R) (n1 := K) r k) = X' (ix2 (n0 := R') (n1 := K) r' k)) :
    Cert.Spec.lin X W b (ix2 (n0 := R) (n1 := C) r q) = Cert.Spec.lin X' W b (ix2 (n0 := R') (n1 := C) r' q) := by
  show (∑ k : Fin K, X (ix2 (n0 := R) (n1 := K) r k) * W (ix2 (n0 := K) (n1 := C) k q)) + b (ix2 (n0 := 1) (n1 := C) 0 q)
      = (∑ k : Fin K, X' (ix2 (n0 := R') (n1 := K) r' k) * W (ix2 (n0 := K) (n1 := C) k q)) + b (ix2 (n0 := 1) (n1 := C) 0 q)
  rw [Finset.sum_congr rfl fun k _ => by rw [hX k]]

/-- Row y 0 of block n is row n · 5000 + y 0 of the whole array; the column stays. -/
def rowIdx (n : Nat) (hn : n < 20) (y : S5000x128.Idx) : S100000x128.Idx :=
  ix2 (n0 := 100000) (n1 := 128) ⟨n * 5000 + (y 0).val, by have := idx2_lt0 y; omega⟩ (y 1)

/-- Block n of the whole-array output stage is the output stage of block n of the row arrays: the weights and bias rows are whole. -/
theorem oS_rows (n : Nat) (hn : n < 20) (H Vv A X : Cert.Spec.Arr 100000 128) (Wh : Cert.Spec.Arr 128 128) (bh : Cert.Spec.Arr 1 128)
    (Wf1 : Cert.Spec.Arr 128 256) (bf1 : Cert.Spec.Arr 1 256) (Wf2 : Cert.Spec.Arr 256 128) (bf2 : Cert.Spec.Arr 1 128) (j : S5000x128.Idx) :
    Cert.Spec.oS (R := 5000) (fun y => H (rowIdx n hn y)) (fun y => Vv (rowIdx n hn y)) (fun y => A (rowIdx n hn y)) (fun y => X (rowIdx n hn y))
        Wh bh Wf1 bf1 Wf2 bf2 j
      = Cert.Spec.oS (R := 100000) H Vv A X Wh bh Wf1 bf1 Wf2 bf2 (rowIdx n hn j) := by
  obtain ⟨p, q, rfl⟩ : ∃ (p : Fin 5000) (q : Fin 128), j = ix2 p q := ⟨j 0, j 1, eq_ix2 j⟩
  have hp : n * 5000 + p.val < 100000 := by have := p.isLt; omega
  unfold Cert.Spec.oS
  refine lin_row _ _ Wf2 bf2 p ⟨n * 5000 + p.val, hp⟩ q fun k => ?_
  refine congrArg Cert.Spec.relu (lin_row _ _ Wf1 bf1 p ⟨n * 5000 + p.val, hp⟩ k fun k' => ?_)
  refine congrArg (fun s => Cert.Spec.relu s + X (ix2 (n0 := 100000) (n1 := 128) ⟨n * 5000 + p.val, hp⟩ k'))
    (lin_row _ _ Wh bh p ⟨n * 5000 + p.val, hp⟩ k' fun k'' => rfl)

/-! ## From blocks to the array -/

theorem hz : (![0, 0] : Fin 2 → Nat) = fun _ => 0 := funext fun a => match a with | ⟨0, _⟩ => rfl | ⟨1, _⟩ => rfl

/-- The printed index maps over the grid: a row window's block index is the point on axis 0 and zero on axis 1; a weight or
    bias window's block index is zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = t.val ∧ win2_10.index t (1 : Fin 2) = 0 :=
  (by decide +kernel : ∀ t : Fin grid2.N, _)

theorem point_lt (t : Fin cfg2.N) : t.val < 20 := by have := t.isLt; have hN : cfg2.N = 20 := N_2; omega

/-- The hidden-state window's block at point t is rows t · 5000 … of its array. -/
theorem blk0_eq (c : Dev nD) (t : Fin cfg2.N) :
    (iblk2 V c 0 t : Vec Ideal S5000x128 .f32) = fun y => (V c main_v3_0 : S100000x128.Idx → EReal) (rowIdx t.val (point_lt t) y) := by
  obtain ⟨e0, e1, -⟩ := idx_facts t
  funext y
  show (V c main_v3_0 : S100000x128.Idx → EReal) (((cfg2.win 0).blk t).view.emb y) = _
  refine congrArg _ (funext fun a => Fin.ext ?_)
  match a with
  | ⟨0, _⟩ => show win2_0.index t (0 : Fin 2) * 5000 + 1 * (y 0).val = t.val * 5000 + (y 0).val; rw [e0]; omega
  | ⟨1, _⟩ => show win2_0.index t (1 : Fin 2) * 128 + 1 * (y 1).val = (y 1).val; rw [e1]; omega

/-- The value window's block at point t is rows t · 5000 … of its array. -/
theorem blk1_eq (c : Dev nD) (t : Fin cfg2.N) :
    (iblk2 V c 1 t : Vec Ideal S5000x128 .f32) = fun y => (V c main_v3_1 : S100000x128.Idx → EReal) (rowIdx t.val (point_lt t) y) := by
  obtain ⟨-, -, e0, e1, -⟩ := idx_facts t
  funext y
  show (V c main_v3_1 : S100000x128.Idx → EReal) (((cfg2.win 1).blk t).view.emb y) = _
  refine congrArg _ (funext fun a => Fin.ext ?_)
  match a with
  | ⟨0, _⟩ => show win2_1.index t (0 : Fin 2) * 5000 + 1 * (y 0).val = t.val * 5000 + (y 0).val; rw [e0]; omega
  | ⟨1, _⟩ => show win2_1.index t (1 : Fin 2) * 128 + 1 * (y 1).val = (y 1).val; rw [e1]; omega

/-- The aggregate window's block at point t is rows t · 5000 … of its array. -/
theorem blk2_eq (c : Dev nD) (t : Fin cfg2.N) :
    (iblk2 V c 2 t : Vec Ideal S5000x128 .f32) = fun y => (V c main_v14 : S100000x128.Idx → EReal) (rowIdx t.val (point_lt t) y) := by
  obtain ⟨-, -, -, -, e0, e1, -⟩ := idx_facts t
  funext y
  show (V c main_v14 : S100000x128.Idx → EReal) (((cfg2.win 2).blk t).view.emb y) = _
  refine congrArg _ (funext fun a => Fin.ext ?_)
  match a with
  | ⟨0, _⟩ => show win2_2.index t (0 : Fin 2) * 5000 + 1 * (y 0).val = t.val * 5000 + (y 0).val; rw [e0]; omega
  | ⟨1, _⟩ => show win2_2.index t (1 : Fin 2) * 128 + 1 * (y 1).val = (y 1).val; rw [e1]; omega

/-- The residual input's block at point t is rows t · 5000 … of its array. -/
theorem blk3_eq (c : Dev nD) (t : Fin cfg2.N) :
    (iblk2 V c 3 t : Vec Ideal S5000x128 .f32) = fun y => (V c main_arg0 : S100000x128.Idx → EReal) (rowIdx t.val (point_lt t) y) := by
  obtain ⟨-, -, -, -, -, -, e0, e1, -⟩ := idx_facts t
  funext y
  show (V c main_arg0 : S100000x128.Idx → EReal) (((cfg2.win 3).blk t).view.emb y) = _
  refine congrArg _ (funext fun a => Fin.ext ?_)
  match a with
  | ⟨0, _⟩ => show win2_3.index t (0 : Fin 2) * 5000 + 1 * (y 0).val = t.val * 5000 + (y 0).val; rw [e0]; omega
  | ⟨1, _⟩ => show win2_3.index t (1 : Fin 2) * 128 + 1 * (y 1).val = (y 1).val; rw [e1]; omega

/-- The hidden layer's weight window holds the whole matrix at every point. -/
theorem blk4_eq (c : Dev nD) (t : Fin cfg2.N) :
    (iblk2 V c 4 t : Vec Ideal S128x128 .f32) = (V c main_arg14 : S128x128.Idx → EReal) := by
  obtain ⟨-, -, -, -, -, -, -, -, e0, e1, -⟩ := idx_facts t
  funext y
  show (V c main_arg14 : S128x128.Idx → EReal) (((cfg2.win 4).blk t).view.emb y) = _
  refine congrArg _ (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- The hidden layer's bias window holds the whole row at every point. -/
theorem blk5_eq (c : Dev nD) (t : Fin cfg2.N) :
    (iblk2 V c 5 t : Vec Ideal S1x128 .f32) = (V c main_v15 : S1x128.Idx → EReal) := by
  obtain ⟨-, -, -, -, -, -, -, -, -, -, e0, e1, -⟩ := idx_facts t
  funext y
  show (V c main_v15 : S1x128.Idx → EReal) (((cfg2.win 5).blk t).view.emb y) = _
  refine congrArg _ (funext fun a => Fin.ext ?_)
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-- The first feed-forward weight window holds the whole matrix at every point. -/
theorem blk6_eq (c : Dev nD) (t : Fin cfg2.N) :
    (iblk2 V c 6 t : Vec Ideal S128x256 .f32) = (V c main_arg16 : S128x256.Idx → EReal) := by
  obtain ⟨-, -, -, -, -, -, -, -, -, -, -, -, e0, e1, -⟩ := idx_facts t
  funext y
  show (V c main_arg16 : S128x256.Idx → EReal) (((cfg2.win 6).blk t).view.emb y) = _
  refine congrArg _ (funext fun a => Fin.ext ?_)
  match a with
  | ⟨0, _⟩ => show win2_6.index t (0 : Fin 2) * 128 + 1 * (y 0).val = (y 0).val; rw [e0]; omega
  | ⟨1, _⟩ => show win2_6.index t (1 : Fin 2) * 256 + 1 * (y 1).val = (y 1).val; rw [e1]; omega

/-- The first feed-forward bias window holds the whole row at every point. -/
theorem blk7_eq (c : Dev nD) (t : Fin cfg2.N) :
    (iblk2 V c 7 t : Vec Ideal S1x256 .f32) = (V c main_v16 : S1x256.Idx → EReal) := by
  obtain ⟨-, -, -, -, -, -, -, -, -, -, -, -, -, -, e0, e1, -⟩ := idx_facts t
  funext y
  show (V c main_v16 : S1x256.Idx → EReal) (((cfg2.win 7).blk t).view.emb y) = _
  refine congrArg _ (funext fun a => Fin.ext ?_)
  match a with
  | ⟨0, _⟩ => show win2_7.index t (0 : Fin 2) * 1 + 1 * (y 0).val = (y 0).val; rw [e0]; omega
  | ⟨1, _⟩ => show win2_7.index t (1 : Fin 2) * 256 + 1 * (y 1).val = (y 1).val; rw [e1]; omega

/-- The second feed-forward weight window holds the whole matrix at every point. -/
theorem blk8_eq (c : Dev nD) (t : Fin cfg2.N) :
    (iblk2 V c 8 t : Vec Ideal S256x128 .f32) = (V c main_arg18 : S256x128.Idx → EReal) := by
  obtain ⟨-, -, -, -, -, -, -, -, -, -, -, -, -, -, -, -, e0, e1, -⟩ := idx_facts t
  funext y
  show (V c main_arg18 : S256x128.Idx → EReal) (((cfg2.win 8).blk t).view.emb y) = _
  refine congrArg _ (funext fun a => Fin.ext ?_)
  match a with
  | ⟨0, _⟩ => show win2_8.index t (0 : Fin 2) * 256 + 1 * (y 0).val = (y 0).val; rw [e0]; omega
  | ⟨1, _⟩ => show win2_8.index t (1 : Fin 2) * 128 + 1 * (y 1).val = (y 1).val; rw [e1]; omega

/-- The second feed-forward bias window holds the whole row at every point. -/
theorem blk9_eq (c : Dev nD) (t : Fin cfg2.N) :
    (iblk2 V c 9 t : Vec Ideal S1x128 .f32) = (V c main_v17 : S1x128.Idx → EReal) := by
  obtain ⟨-, -, -, -, -, -, -, -, -, -, -, -, -, -, -, -, -, -, e0, e1, -⟩ := idx_facts t
  funext y
  show (V c main_v17 : S1x128.Idx → EReal) (((cfg2.win 9).blk t).view.emb y) = _
  refine congrArg _ (funext fun a => Fin.ext ?_)
  match a with
  | ⟨0, _⟩ => show win2_9.index t (0 : Fin 2) * 1 + 1 * (y 0).val = (y 0).val; rw [e0]; omega
  | ⟨1, _⟩ => show win2_9.index t (1 : Fin 2) * 128 + 1 * (y 1).val = (y 1).val; rw [e1]; omega

/-- The output stage of blocks that are block n of the row arrays and the whole weight and bias arrays, read at a block
    index, is the whole-array output stage at that row of block n. -/
theorem oS_blocks (n : Nat) (hn : n < 20) (H Vv A X : Cert.Spec.Arr 100000 128) (Wh : Cert.Spec.Arr 128 128) (bh : Cert.Spec.Arr 1 128)
    (Wf1 : Cert.Spec.Arr 128 256) (bf1 : Cert.Spec.Arr 1 256) (Wf2 : Cert.Spec.Arr 256 128) (bf2 : Cert.Spec.Arr 1 128)
    (h v a x : Cert.Spec.Arr 5000 128) (wh : Cert.Spec.Arr 128 128) (b1 : Cert.Spec.Arr 1 128)
    (wf1 : Cert.Spec.Arr 128 256) (b2 : Cert.Spec.Arr 1 256) (wf2 : Cert.Spec.Arr 256 128) (b3 : Cert.Spec.Arr 1 128)
    (e0 : h = fun y => H (rowIdx n hn y)) (e1 : v = fun y => Vv (rowIdx n hn y)) (e2 : a = fun y => A (rowIdx n hn y))
    (e3 : x = fun y => X (rowIdx n hn y)) (e4 : wh = Wh) (e5 : b1 = bh) (e6 : wf1 = Wf1) (e7 : b2 = bf1) (e8 : wf2 = Wf2) (e9 : b3 = bf2)
    (j : S5000x128.Idx) (i : S100000x128.Idx) (hi : i = rowIdx n hn j) :
    Cert.Spec.oS (R := 5000) h v a x wh b1 wf1 b2 wf2 b3 j = Cert.Spec.oS (R := 100000) H Vv A X Wh bh Wf1 bf1 Wf2 bf2 i := by
  subst e0 e1 e2 e3 e4 e5 e6 e7 e8 e9 hi
  exact oS_rows n hn H Vv A X _ _ _ _ _ _ j

/-- What point t writes back is block t of the output stage of the arrays as the region found them. -/
theorem flushed_eq (c : Dev nD) (t : Fin cfg2.N) :
    (dat2 (F := Ideal) V c).flushed 10 t = ((cfg2.win 10).blk t).view.read (Elt Ideal)
      (Cert.Spec.oS (R := 100000) (V c main_v3_0) (V c main_v3_1) (V c main_v14) (V c main_arg0) (V c main_arg14) (V c main_v15)
          (V c main_arg16) (V c main_v16) (V c main_arg18) (V c main_v17)) := by
  show (cfg2.win 10).cut (grid2.coords t) ((dat2 (F := Ideal) V c).after 10 t) = _
  rw [after2_10]
  unfold out2_10
  rw [View.canon_unit_zero hz]
  simp only [View.ld_unit_zero (S := S5000x128) hz, View.ld_unit_zero (S := S128x128) hz, View.ld_unit_zero (S := S1x128) hz,
    View.ld_unit_zero (S := S128x256) hz, View.ld_unit_zero (S := S1x256) hz, View.ld_unit_zero (S := S256x128) hz]
  rw [pay_eq (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t)]
  funext j
  have hemb : ((cfg2.win 10).blk t).view.emb j = rowIdx t.val (point_lt t) j := by
    obtain ⟨-, -, -, -, -, -, -, -, -, -, -, -, -, -, -, -, -, -, -, -, e0, e1⟩ := idx_facts t
    funext a
    apply Fin.ext
    match a with
    | ⟨0, _⟩ => show win2_10.index t (0 : Fin 2) * 5000 + 1 * (j 0).val = t.val * 5000 + (j 0).val; rw [e0]; omega
    | ⟨1, _⟩ => show win2_10.index t (1 : Fin 2) * 128 + 1 * (j 1).val = (j 1).val; rw [e1]; omega
  exact oS_blocks t.val (point_lt t) (V c main_v3_0) (V c main_v3_1) (V c main_v14) (V c main_arg0) (V c main_arg14) (V c main_v15)
    (V c main_arg16) (V c main_v16) (V c main_arg18) (V c main_v17)
    (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t)
    (blk0_eq V c t) (blk1_eq V c t) (blk2_eq V c t) (blk3_eq V c t) (blk4_eq V c t) (blk5_eq V c t) (blk6_eq V c t)
    (blk7_eq V c t) (blk8_eq V c t) (blk9_eq V c t) j (((cfg2.win 10).blk t).view.emb j) hemb

/-- An index of the result array is in point t's block iff each coordinate is in the block's range on its axis. -/
theorem mem_blk (t : Fin cfg2.N) (i : S100000x128.Idx) :
    i ∈ ((cfg2.win 10).blk t).view.set ↔ ∀ a : Fin 2, win2_10.index t a * S5000x128.size a ≤ (i a).val ∧ (i a).val < win2_10.index t a * S5000x128.size a + S5000x128.size a := by
  show i ∈ ((View.whole main_v18).slice (win2_10.rect t)).set ↔ _
  rw [View.set_slice_whole, Rect.mem_set_unit]
  exact Iff.rfl

/-- Every row of the result array is in the block of the point its row number divided by 5000 names. -/
theorem cover (i : S100000x128.Idx) : ∃ t : Fin cfg2.N, (cfg2.win 10).flush t = true ∧ i ∈ ((cfg2.win 10).blk t).view.set := by
  have hi0 : (i 0).val < 100000 := idx2_lt0 i
  have hi1 : (i 1).val < 128 := idx2_lt1 i
  have hN : cfg2.N = 20 := N_2
  have ht : (i 0).val / 5000 < cfg2.N := by rw [hN]; omega
  obtain ⟨-, -, -, -, -, -, -, -, -, -, -, -, -, -, -, -, -, -, -, -, e0, e1⟩ := idx_facts ⟨(i 0).val / 5000, ht⟩
  have e0' : win2_10.index ⟨(i 0).val / 5000, ht⟩ (0 : Fin 2) = (i 0).val / 5000 := e0
  refine ⟨⟨(i 0).val / 5000, ht⟩, flush2_10 _, ?_⟩
  rw [mem_blk]
  intro a
  match a with
  | ⟨0, _⟩ =>
    show win2_10.index ⟨(i 0).val / 5000, ht⟩ (0 : Fin 2) * 5000 ≤ (i 0).val ∧ (i 0).val < win2_10.index ⟨(i 0).val / 5000, ht⟩ (0 : Fin 2) * 5000 + 5000
    rw [e0']; omega
  | ⟨1, _⟩ =>
    show win2_10.index ⟨(i 0).val / 5000, ht⟩ (1 : Fin 2) * 128 ≤ (i 1).val ∧ (i 1).val < win2_10.index ⟨(i 0).val / 5000, ht⟩ (1 : Fin 2) * 128 + 128
    rw [e1]; omega

/-- After the output stage's twenty grid points the result array holds `oS` of the stage's input arrays as the region found them. -/
theorem final_out (c : Dev nD) :
    (dat2 (F := Ideal) V c).arrAt 10 cfg2.N
      = Cert.Spec.oS (R := 100000) (V c main_v3_0) (V c main_v3_1) (V c main_v14) (V c main_arg0) (V c main_arg14) (V c main_v15)
          (V c main_arg16) (V c main_v16) (V c main_arg18) (V c main_v17) := by
  exact (dat2 (F := Ideal) V c).arrAt_eq_of_cover 10 _ (fun t _ => flushed_eq V c t) cover

end Cert.KernelIdeal.Region2

end
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.SrcRange.lean ====
import proofs.«406966_j19507741458638_1_alg».proof.Proof.Gen.KernelIdeal
import proofs.«406966_j19507741458638_1_alg».proof.Proof.Gen.Pre_finite_inputs
import proofs.«406966_j19507741458638_1_alg».proof.Proof.LibIndexWrap
import proofs.«406966_j19507741458638_1_alg».proof.Defs
import Idealize.ShloMosaic.Lib.ReduceAll
import Idealize.ShloMosaic.Lib.StableHlo.Predicate
import Idealize.ShloMosaic.Lib.Pipeline.Value
import Idealize.ShloMosaic.Lib.ValueIdx

noncomputable section

namespace Cert.KernelIdeal.SrcRange

open Idealize.ShloMosaic Idealize.ShloMosaic.TcCoe Idealize.SL.Sem Idealize.ShloMosaic.ValueIdx
open Cert.KernelIdeal Cert.KernelIdeal.Gen

/-- The source-node index words: row 0 of the 2 × 800000 edge table, as a vector. -/
def srcIds (a : IVec S2x800000 32) : IVec S800000 32 :=
  shapeCast S800000 (extractStridedSlice S1x800000 ![0, 0] a slices_S2x800000_S1x800000_0_0) shapeCasts_S1x800000_S800000

/-- The index words wrapped the NumPy way (a negative word counts from the end of the 100000 rows), as a column. -/
def wrapIds (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 100000#32))) idx)

/-- The mask of the rows whose wrapped index lies in [0, 99999], spread over the 128 columns. -/
def inRangeMask (idx : IVec S800000 32) : IVec S800000x128 1 :=
  broadcastInDim S800000x128 ![0] bcast_S800000_S800000x128_0
    (Host.reduce IntOp.andi
      (andi (cmpi .sge (wrapIds idx) (broadcastInDim S800000x1 ![] bcast_S_S800000x1 (constantI S_ 32 0#32)))
        (cmpi .sle (wrapIds idx)
          (broadcastInDim S800000x1 ![0, 1] bcast_S1x1_S800000x1_0_1 (broadcastInDim S1x1 ![1] bcast_S1_S1x1_1 (constantI S1 32 99999#32)))))
      (constantI S_ 1 1#1) reducesTo_S800000x1_S800000_d1 h_S_)

/-- Under the precondition every source-node index word is, read as a signed number, in [-100000, 100000). -/
theorem range_of_pre (m : (ℓ : Loc nD τ sig) → Buf (Elt Ideal) ℓ) (hpre : Cert.Pre_KernelIdeal m) (c : Dev nD) (e : S800000.Idx) :
    -(100000 : Int) ≤ (srcIds (m ((c.tc : Thread nD τ).loc main_arg20)) e).toInt
      ∧ (srcIds (m ((c.tc : Thread nD τ).loc main_arg20)) e).toInt < 100000 := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at h
  have hall := (IntOp.andi_eq_one.1 h).2
  haveI : Subsingleton Cert.Pre_finite_inputs.S_.Idx := ⟨fun a b => funext fun d => d.elim0⟩
  have hbit := Host.reduce_andi_all _ _ _ _ _ hall e
  obtain ⟨hge, hlt⟩ := IntOp.andi_eq_one.1 hbit
  have hlo : (4294867296#32 : BitVec 32).toInt = -100000 := by decide
  have hhi : (100000#32 : BitVec 32).toInt = 100000 := by decide
  have hge' := IntOp.cmpi_sge.1 hge
  have hlt' := IntOp.cmpi_slt.1 hlt
  exact ⟨hlo ▸ hge', hhi ▸ hlt'⟩

/-- At a row of the column, the range test of the wrapped word is the bit 1. -/
theorem rangeTest_col (idx : IVec S800000 32) (h : ∀ e, -(100000 : Int) ≤ (idx e).toInt ∧ (idx e).toInt < 100000)
    (j : S800000x1.Idx) :
    (andi (cmpi .sge (wrapIds idx) (broadcastInDim S800000x1 ![] bcast_S_S800000x1 (constantI S_ 32 0#32)))
        (cmpi .sle (wrapIds idx)
          (broadcastInDim S800000x1 ![0, 1] bcast_S1x1_S800000x1_0_1 (broadcastInDim S1x1 ![1] bcast_S1_S1x1_1 (constantI S1 32 99999#32))))) j
      = 1#1 := by
  obtain ⟨k, hk⟩ : ∃ k : S800000.Idx, wrapIds idx j = IndexWrap.wrapWord 100000#32 (idx k) := ⟨_, rfl⟩
  show IntOp.andi (IntOp.cmpi .sge (wrapIds idx j) 0#32) (IntOp.cmpi .sle (wrapIds idx j) 99999#32) = 1#1
  rw [hk]
  exact IndexWrap.rangeTest_wrap 100000 (by decide) (by decide) 99999#32 (by decide) (idx k)
    (by have := (h k).1; omega) (by have := (h k).2; omega)

/-- If every index word is in [-100000, 100000) the in-range mask is 1 everywhere. -/
theorem mask_ones (idx : IVec S800000 32) (h : ∀ e, -(100000 : Int) ≤ (idx e).toInt ∧ (idx e).toInt < 100000)
    (i : S800000x128.Idx) : inRangeMask idx i = 1#1 := by
  unfold inRangeMask broadcastInDim
  refine IndexWrap.reduce_andi_of_all _ _ _ _ (fun _ => rfl) (fun j => ?_) _
  exact rangeTest_col idx h j

end Cert.KernelIdeal.SrcRange

end
-- ==== Proof.KernelGlue.lean ====
/-
  The kernel program's result as one function of its arguments.

  @main is three kernel regions among stretches of host operations. Each region's output array is a specification function
  (`Cert.Spec`) of the arrays the region finds when it is entered; the stretches between the regions reshape bias vectors,
  slice the edge table, gather the source rows and scatter-add the messages. Walking the boundaries from the launch memory to
  the return gives the result buffer as `result m c`: the output stage of (the gate, the value, the aggregate of the edge
  stage's messages over the gathered gate rows).
-/
import proofs.«406966_j19507741458638_1_alg».proof.Proof.Gen.KernelIdeal.Frame
import proofs.«406966_j19507741458638_1_alg».proof.Proof.GlueArgs
import proofs.«406966_j19507741458638_1_alg».proof.Proof.Region0
import proofs.«406966_j19507741458638_1_alg».proof.Proof.Region1
import proofs.«406966_j19507741458638_1_alg».proof.Proof.Region2
import proofs.«406966_j19507741458638_1_alg».proof.Proof.SrcRange
import proofs.«406966_j19507741458638_1_alg».proof.Proof.Spec
import proofs.«406966_j19507741458638_1_alg».proof.Proof.LibIndexWrap
import Idealize.ShloMosaic.Lib.StableHlo.Run
import Idealize.ShloMosaic.Lib.Pipeline.Value
import Idealize.ShloMosaic.Lib.ValueLayout

set_option maxRecDepth 16384

noncomputable section

namespace Cert.KernelIdeal.Glue

open Idealize.ShloMosaic Idealize.ShloMosaic.TcCoe Idealize.SL.Sem Idealize.ShloMosaic.ValueIdx Idealize.ShloMosaic.StableHlo
open Cert.KernelIdeal Cert.KernelIdeal.Gen Cert.KernelIdeal.SrcRange Cert.KernelIdeal.GlueArgs

variable (m : (ℓ : Loc nD τ sig) → Buf (Elt Ideal) ℓ) (ρ : Dev nD → PrngReg)

/-! ## What each stage reads and leaves

The node stage reads x, prompt and three weight matrices as launched, and each bias vector reshaped to a row. -/

theorem V1_arg0 (c : Dev nD) : V1 m ρ c main_arg0 = m ((c : Thread nD τ).loc main_arg0) := W1_arg0 m ρ c
theorem V1_arg1 (c : Dev nD) : V1 m ρ c main_arg1 = m ((c : Thread nD τ).loc main_arg1) := W1_arg1 m ρ c
theorem V1_arg4 (c : Dev nD) : V1 m ρ c main_arg4 = m ((c : Thread nD τ).loc main_arg4) := W1_arg4 m ρ c
theorem V1_arg6 (c : Dev nD) : V1 m ρ c main_arg6 = m ((c : Thread nD τ).loc main_arg6) := W1_arg6 m ρ c
theorem V1_arg8 (c : Dev nD) : V1 m ρ c main_arg8 = m ((c : Thread nD τ).loc main_arg8) := W1_arg8 m ρ c
theorem V1_v0 (c : Dev nD) : V1 m ρ c main_v0 = shapeCast S1x128 (m ((c : Thread nD τ).loc main_arg5)) shapeCasts_S128_S1x128 := by
  show StableHlo.after hostOps0 (W0 m ρ c) (Proc.devRef .tc main_v0) = _
  after_results
  rfl
theorem V1_v1 (c : Dev nD) : V1 m ρ c main_v1 = shapeCast S1x128 (m ((c : Thread nD τ).loc main_arg7)) shapeCasts_S128_S1x128 := by
  show StableHlo.after hostOps0 (W0 m ρ c) (Proc.devRef .tc main_v1) = _
  after_results
  rfl
theorem V1_v2 (c : Dev nD) : V1 m ρ c main_v2 = shapeCast S1x128 (m ((c : Thread nD τ).loc main_arg9)) shapeCasts_S128_S1x128 := by
  show StableHlo.after hostOps0 (W0 m ρ c) (Proc.devRef .tc main_v2) = _
  after_results
  rfl

/-- The gate array h, as the node stage leaves it. -/
abbrev gate (c : Dev nD) : Cert.Spec.Arr 100000 128 :=
  Cert.Spec.hS (R := 100000) (m ((c : Thread nD τ).loc main_arg0)) (m ((c : Thread nD τ).loc main_arg1)) (m ((c : Thread nD τ).loc main_arg4)) (shapeCast S1x128 (m ((c : Thread nD τ).loc main_arg5)) shapeCasts_S128_S1x128)
    (m ((c : Thread nD τ).loc main_arg6)) (shapeCast S1x128 (m ((c : Thread nD τ).loc main_arg7)) shapeCasts_S128_S1x128)

/-- The value array V, as the node stage leaves it. -/
abbrev value (c : Dev nD) : Cert.Spec.Arr 100000 128 :=
  Cert.Spec.vS (R := 100000) (m ((c : Thread nD τ).loc main_arg1)) (m ((c : Thread nD τ).loc main_arg8)) (shapeCast S1x128 (m ((c : Thread nD τ).loc main_arg9)) shapeCasts_S128_S1x128)

theorem W2_gate (c : Dev nD) : W2 m ρ c (Proc.devRef .tc main_v3_0) = gate m c := by
  refine (W2_arr m ρ c 8).trans ((Region0.final_h (V1 m ρ) c).trans ?_)
  rw [V1_arg0 m ρ c, V1_arg1 m ρ c, V1_arg4 m ρ c, V1_v0 m ρ c, V1_arg6 m ρ c, V1_v1 m ρ c]

theorem W2_value (c : Dev nD) : W2 m ρ c (Proc.devRef .tc main_v3_1) = value m c := by
  refine (W2_arr m ρ c 9).trans ((Region0.final_v (V1 m ρ) c).trans ?_)
  rw [V1_arg1 m ρ c, V1_arg8 m ρ c, V1_v2 m ρ c]

/-! The edge stage reads edge_attr, prompt_e and two weight matrices as launched, two bias rows, and the rows of the gate
array that the source indices pick: a fill-mode take, which wraps a negative index, gathers, and replaces a row whose wrapped
index is out of range by the quiet-NaN word. -/

theorem V5_arg3 (c : Dev nD) : V5 m ρ c main_arg3 = m ((c : Thread nD τ).loc main_arg3) := W5_arg3 m ρ c
theorem V5_arg2 (c : Dev nD) : V5 m ρ c main_arg2 = m ((c : Thread nD τ).loc main_arg2) := W5_arg2 m ρ c
theorem V5_arg10 (c : Dev nD) : V5 m ρ c main_arg10 = m ((c : Thread nD τ).loc main_arg10) := W5_arg10 m ρ c
theorem V5_arg12 (c : Dev nD) : V5 m ρ c main_arg12 = m ((c : Thread nD τ).loc main_arg12) := W5_arg12 m ρ c
theorem V5_v7 (c : Dev nD) : V5 m ρ c main_v7 = shapeCast S1x128 (m ((c : Thread nD τ).loc main_arg11)) shapeCasts_S128_S1x128 := by
  show StableHlo.after hostOps1_2 (StableHlo.after hostOps1_1 (StableHlo.after hostOps1 (W2 m ρ c))) (Proc.devRef .tc main_v7) = _
  after_results
  rw [W2_arg11 m ρ c]
  rfl
theorem V5_v8 (c : Dev nD) : V5 m ρ c main_v8 = shapeCast S1x128 (m ((c : Thread nD τ).loc main_arg13)) shapeCasts_S128_S1x128 := by
  show StableHlo.after hostOps1_2 (StableHlo.after hostOps1_1 (StableHlo.after hostOps1 (W2 m ρ c))) (Proc.devRef .tc main_v8) = _
  after_results
  rw [W2_arg13 m ρ c]
  rfl

/-- The rows handed to the edge stage: the gate array's rows at the wrapped source indices, masked. -/
abbrev srcRows (c : Dev nD) : Cert.Spec.Arr 800000 128 :=
  select (inRangeMask (srcIds (m ((c : Thread nD τ).loc main_arg20))))
    (Host.gather gather_S100000x128_S800000x1_S800000x128_1_0_n_n_0_1_1128 (gate m c) (wrapIds (srcIds (m ((c : Thread nD τ).loc main_arg20)))))
    (broadcastInDim S800000x128 ![] bcast_S_S800000x128 (constant (F := Ideal) S_ .f32 0x7FC00000#32))

theorem W3_v5 (c : Dev nD) : W3 m ρ c (Proc.devRef .tc main_v5) = srcIds (m ((c : Thread nD τ).loc main_arg20)) := by
  show StableHlo.after hostOps1 (W2 m ρ c) (Proc.devRef .tc main_v5) = _
  after_results
  rw [W2_arg20 m ρ c]
  rfl
theorem W3_gate (c : Dev nD) : W3 m ρ c (Proc.devRef .tc main_v3_0) = gate m c := by
  show StableHlo.after hostOps1 (W2 m ρ c) (Proc.devRef .tc main_v3_0) = _
  after_results
  exact W2_gate m ρ c

/-- Reading a buffer's contents at the value's type undoes writing them at the buffer's type. -/
theorem ofBuf_toBuf {Val : EltTy → Type} {T : BufTy} (x : StableHlo.TRef sig T) (v : T.Contents Val) :
    x.ofBuf (x.toBuf v) = v := by
  cases x with
  | mk rx hx hd hu =>
    cases hx
    rfl

/-- For the take's result buffer, contents at the value's type are contents of the buffer as they stand. -/
theorem toBuf_v6 (p1 p2 p3) (v : (⟨S800000x128, .f32⟩ : BufTy).Contents (Elt Ideal)) :
    (StableHlo.TRef.of (T := ⟨S800000x128, .f32⟩) main_v6 p1 p2 p3).toBuf v = v := rfl
/-- For the index vector the take reads, the buffer's contents are the value's as they stand. -/
theorem ofBuf_v5 (p1 p2 p3) (v : (⟨S800000, .i32⟩ : BufTy).Contents (Elt Ideal)) :
    (StableHlo.TRef.of (T := ⟨S800000, .i32⟩) main_v5 p1 p2 p3).ofBuf v = v := rfl
/-- For the gate array the take reads, the buffer's contents are the value's as they stand. -/
theorem ofBuf_v3_0 (p1 p2 p3) (v : (⟨S100000x128, .f32⟩ : BufTy).Contents (Elt Ideal)) :
    (StableHlo.TRef.of (T := ⟨S100000x128, .f32⟩) main_v3_0 p1 p2 p3).ofBuf v = v := rfl

set_option maxHeartbeats 4000000 in
/-- The take's twenty-three operations, from any contents: the masked gather of the gate rows at the wrapped indices. -/
theorem take_result (W : Valuation τ sig (Elt Ideal)) :
    StableHlo.after hostOps1_1 W (Proc.devRef .tc main_v6)
      = select (inRangeMask (W (Proc.devRef .tc main_v5)))
          (Host.gather gather_S100000x128_S800000x1_S800000x128_1_0_n_n_0_1_1128 (W (Proc.devRef .tc main_v3_0))
            (wrapIds (W (Proc.devRef .tc main_v5))))
          (broadcastInDim S800000x128 ![] bcast_S_S800000x128 (constant (F := Ideal) S_ .f32 0x7FC00000#32)) := by
  after_results_simp
  simp only [ofBuf_toBuf, toBuf_v6, ofBuf_v5, ofBuf_v3_0]
  rfl

/-- The two reshapes after the take leave its result alone. -/
theorem after_take_v6 (W : Valuation τ sig (Elt Ideal)) :
    StableHlo.after hostOps1_2 W (Proc.devRef .tc main_v6) = W (Proc.devRef .tc main_v6) := by
  after_results

theorem V5_v6 (c : Dev nD) : V5 m ρ c main_v6 = srcRows m c := by
  show StableHlo.after hostOps1_2 (W4 m ρ c) (Proc.devRef .tc main_v6) = _
  rw [after_take_v6]
  show StableHlo.after hostOps1_1 (W3 m ρ c) (Proc.devRef .tc main_v6) = _
  rw [take_result, W3_v5 m ρ c, W3_gate m ρ c]

/-- The message array, as the edge stage leaves it. -/
abbrev msg (c : Dev nD) : Cert.Spec.Arr 800000 128 :=
  Cert.Spec.mS (R := 800000) (m ((c : Thread nD τ).loc main_arg3)) (m ((c : Thread nD τ).loc main_arg2)) (srcRows m c) (m ((c : Thread nD τ).loc main_arg10)) (shapeCast S1x128 (m ((c : Thread nD τ).loc main_arg11)) shapeCasts_S128_S1x128) (m ((c : Thread nD τ).loc main_arg12)) (shapeCast S1x128 (m ((c : Thread nD τ).loc main_arg13)) shapeCasts_S128_S1x128)

theorem W6_msg (c : Dev nD) : W6 m ρ c (Proc.devRef .tc main_v9) = msg m c := by
  refine (W6_arr m ρ c 7).trans ((Region1.final_msg (V5 m ρ) c).trans ?_)
  rw [V5_arg3 m ρ c, V5_arg2 m ρ c, V5_v6 m ρ c, V5_arg10 m ρ c, V5_v7 m ρ c, V5_arg12 m ρ c, V5_v8 m ρ c]

/-! The output stage reads the gate and value arrays the node stage left, the aggregate (the messages scatter-added at the
destination indices into zeros), x and three weight matrices as launched, and three bias rows. -/

/-- The destination-node index words: row 1 of the edge table, as a column. -/
abbrev dstIds (a : IVec S2x800000 32) : IVec S800000x1 32 :=
  broadcastInDim S800000x1 ![0] bcast_S800000_S800000x1_0
    (shapeCast S800000 (extractStridedSlice S1x800000 ![1, 0] a slices_S2x800000_S1x800000_1_0) shapeCasts_S1x800000_S800000)

/-- The aggregate: every message added into its destination node's row, from zeros. -/
abbrev aggr (c : Dev nD) : Cert.Spec.Arr 100000 128 :=
  Host.scatterAdd scatter_S100000x128_S800000x1_S800000x128_1_0_0_1
    (broadcastInDim S100000x128 ![] bcast_S_S100000x128 (constant (F := Ideal) S_ .f32 0x00000000#32))
    (dstIds (m ((c : Thread nD τ).loc main_arg20))) (msg m c)

theorem V7_v3_0 (c : Dev nD) : V7 m ρ c main_v3_0 = gate m c := by
  show StableHlo.after hostOps2 (W6 m ρ c) (Proc.devRef .tc main_v3_0) = _
  after_results
  rw [W6_of_ne m ρ c main_v3_0 (by decide)]
  show StableHlo.after hostOps1_2 (StableHlo.after hostOps1_1 (StableHlo.after hostOps1 (W2 m ρ c))) (Proc.devRef .tc main_v3_0) = _
  after_results
  exact W2_gate m ρ c
theorem V7_v3_1 (c : Dev nD) : V7 m ρ c main_v3_1 = value m c := by
  show StableHlo.after hostOps2 (W6 m ρ c) (Proc.devRef .tc main_v3_1) = _
  after_results
  rw [W6_of_ne m ρ c main_v3_1 (by decide)]
  show StableHlo.after hostOps1_2 (StableHlo.after hostOps1_1 (StableHlo.after hostOps1 (W2 m ρ c))) (Proc.devRef .tc main_v3_1) = _
  after_results
  exact W2_value m ρ c
theorem V7_v14 (c : Dev nD) : V7 m ρ c main_v14 = aggr m c := by
  show StableHlo.after hostOps2 (W6 m ρ c) (Proc.devRef .tc main_v14) = _
  after_results
  rw [W6_arg20 m ρ c, W6_msg m ρ c]
  rfl
theorem V7_arg0 (c : Dev nD) : V7 m ρ c main_arg0 = m ((c : Thread nD τ).loc main_arg0) := by
  show StableHlo.after hostOps2 (W6 m ρ c) (Proc.devRef .tc main_arg0) = _
  after_results
  exact W6_arg0 m ρ c
theorem V7_arg14 (c : Dev nD) : V7 m ρ c main_arg14 = m ((c : Thread nD τ).loc main_arg14) := by
  show StableHlo.after hostOps2 (W6 m ρ c) (Proc.devRef .tc main_arg14) = _
  after_results
  exact W6_arg14 m ρ c
theorem V7_arg16 (c : Dev nD) : V7 m ρ c main_arg16 = m ((c : Thread nD τ).loc main_arg16) := by
  show StableHlo.after hostOps2 (W6 m ρ c) (Proc.devRef .tc main_arg16) = _
  after_results
  exact W6_arg16 m ρ c
theorem V7_arg18 (c : Dev nD) : V7 m ρ c main_arg18 = m ((c : Thread nD τ).loc main_arg18) := by
  show StableHlo.after hostOps2 (W6 m ρ c) (Proc.devRef .tc main_arg18) = _
  after_results
  exact W6_arg18 m ρ c
theorem V7_v15 (c : Dev nD) : V7 m ρ c main_v15 = shapeCast S1x128 (m ((c : Thread nD τ).loc main_arg15)) shapeCasts_S128_S1x128 := by
  show StableHlo.after hostOps2 (W6 m ρ c) (Proc.devRef .tc main_v15) = _
  after_results
  rw [W6_arg15 m ρ c]
  rfl
theorem V7_v16 (c : Dev nD) : V7 m ρ c main_v16 = shapeCast S1x256 (m ((c : Thread nD τ).loc main_arg17)) shapeCasts_S256_S1x256 := by
  show StableHlo.after hostOps2 (W6 m ρ c) (Proc.devRef .tc main_v16) = _
  after_results
  rw [W6_arg17 m ρ c]
  rfl
theorem V7_v17 (c : Dev nD) : V7 m ρ c main_v17 = shapeCast S1x128 (m ((c : Thread nD τ).loc main_arg19)) shapeCasts_S128_S1x128 := by
  show StableHlo.after hostOps2 (W6 m ρ c) (Proc.devRef .tc main_v17) = _
  after_results
  rw [W6_arg19 m ρ c]
  rfl

/-- The result array, as the output stage leaves it. -/
abbrev result (c : Dev nD) : Cert.Spec.Arr 100000 128 :=
  Cert.Spec.oS (R := 100000) (gate m c) (value m c) (aggr m c) (m ((c : Thread nD τ).loc main_arg0)) (m ((c : Thread nD τ).loc main_arg14)) (shapeCast S1x128 (m ((c : Thread nD τ).loc main_arg15)) shapeCasts_S128_S1x128) (m ((c : Thread nD τ).loc main_arg16))
    (shapeCast S1x256 (m ((c : Thread nD τ).loc main_arg17)) shapeCasts_S256_S1x256) (m ((c : Thread nD τ).loc main_arg18)) (shapeCast S1x128 (m ((c : Thread nD τ).loc main_arg19)) shapeCasts_S128_S1x128)

/-- THE KERNEL'S VALUE: at the last boundary the result buffer holds the three stages composed. -/
theorem W8_result (c : Dev nD) : W8 m ρ c (Proc.devRef .tc main_v18) = result m c := by
  refine (W8_arr m ρ c 10).trans ((Region2.final_out (V7 m ρ) c).trans ?_)
  rw [V7_v3_0 m ρ c, V7_v3_1 m ρ c, V7_v14 m ρ c, V7_arg0 m ρ c, V7_arg14 m ρ c, V7_v15 m ρ c, V7_arg16 m ρ c, V7_v16 m ρ c,
    V7_arg18 m ρ c, V7_v17 m ρ c]

end Cert.KernelIdeal.Glue

end
-- ==== Proof.RefValue.lean ====
import proofs.«406966_j19507741458638_1_alg».proof.Proof.Gen.ReferenceIdeal.Read
import proofs.«406966_j19507741458638_1_alg».proof.Proof.Spec
import Idealize.ShloMosaic.Lib.Pipeline.Value
import Idealize.ShloMosaic.Lib.ValueLayout
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read

/-- A sum of products read at the indices (row, k) and (k, column), plus a vector's entry at the column, is the affine
    layer's entry: the form every dense layer of the reference takes once its operations are read at an index. -/
theorem lin_read {R : Nat} (X : Cert.Spec.Arr R 128) (W : Cert.Spec.Arr 128 128) (b : Cert.Spec.Vc 128)
    (i : (⟨2, ![R, 128]⟩ : Shape).Idx)
    (l : Fin 128 → (⟨2, ![R, 128]⟩ : Shape).Idx) (r : Fin 128 → (⟨2, ![128, 128]⟩ : Shape).Idx)
    (j : (⟨1, ![128]⟩ : Shape).Idx)
    (hl : ∀ k, l k = ix2 (n0 := R) (n1 := 128) (i 0) k) (hr : ∀ k, r k = ix2 (n0 := 128) (n1 := 128) k (i 1))
    (hj : j = ix1 (n := 128) (i 1)) :
    (∑ k : Fin 128, X (l k) * W (r k)) + b j = Cert.Spec.lin X W (Cert.Spec.row b) i := by
  obtain rfl : l = fun k => ix2 (n0 := R) (n1 := 128) (i 0) k := funext hl
  obtain rfl : r = fun k => ix2 (n0 := 128) (n1 := 128) k (i 1) := funext hr
  subst hj
  rfl

/-- The maximum with the number the word of +0.0 denotes is the rectifier. -/
theorem relu_read (a : Ideal .f32) :
    FloatOps.maximumf a (FloatOps.ofBits (F := Ideal) .f32 0x00000000#32) = Cert.Spec.relu a := rfl

/-! The index functions of the reference's operations, as indices built from coordinates. A product of a rows × 128
    array with a 128 × 128 array reads its left operand at (row, k) and its right operand at (k, column); a bias vector
    broadcast to a row and then to every row is read at the column. -/

theorem l_v0 (i : S100000x128.Idx) (k : Fin 128) : lidx_main_v0 i k = ix2 (n0 := 100000) (n1 := 128) (i 0) k :=
  funext fun a => Fin.ext (by match a with | ⟨0, _⟩ => rfl | ⟨1, _⟩ => rfl)
theorem r_v0 (i : S100000x128.Idx) (k : Fin 128) : ridx_main_v0 i k = ix2 (n0 := 128) (n1 := 128) k (i 1) :=
  funext fun a => Fin.ext (by match a with | ⟨0, _⟩ => rfl | ⟨1, _⟩ => rfl)
theorem b_v2 (i : S100000x128.Idx) : idx_main_v1 (idx_main_v2 i) = ix1 (n := 128) (i 1) :=
  funext fun a => Fin.ext (by match a with | ⟨0, _⟩ => rfl)

theorem l_v4 (i : S100000x128.Idx) (k : Fin 128) : lidx_main_v4 i k = ix2 (n0 := 100000) (n1 := 128) (i 0) k :=
  funext fun a => Fin.ext (by match a with | ⟨0, _⟩ => rfl | ⟨1, _⟩ => rfl)
theorem r_v4 (i : S100000x128.Idx) (k : Fin 128) : ridx_main_v4 i k = ix2 (n0 := 128) (n1 := 128) k (i 1) :=
  funext fun a => Fin.ext (by match a with | ⟨0, _⟩ => rfl | ⟨1, _⟩ => rfl)
theorem b_v6 (i : S100000x128.Idx) : idx_main_v5 (idx_main_v6 i) = ix1 (n := 128) (i 1) :=
  funext fun a => Fin.ext (by match a with | ⟨0, _⟩ => rfl)

theorem l_v8 (i : S100000x128.Idx) (k : Fin 128) : lidx_main_v8 i k = ix2 (n0 := 100000) (n1 := 128) (i 0) k :=
  funext fun a => Fin.ext (by match a with | ⟨0, _⟩ => rfl | ⟨1, _⟩ => rfl)
theorem r_v8 (i : S100000x128.Idx) (k : Fin 128) : ridx_main_v8 i k = ix2 (n0 := 128) (n1 := 128) k (i 1) :=
  funext fun a => Fin.ext (by match a with | ⟨0, _⟩ => rfl | ⟨1, _⟩ => rfl)
theorem b_v10 (i : S100000x128.Idx) : idx_main_v9 (idx_main_v10 i) = ix1 (n := 128) (i 1) :=
  funext fun a => Fin.ext (by match a with | ⟨0, _⟩ => rfl)

theorem l_v24 (i : S800000x128.Idx) (k : Fin 128) : lidx_main_v24 i k = ix2 (n0 := 800000) (n1 := 128) (i 0) k :=
  funext fun a => Fin.ext (by match a with | ⟨0, _⟩ => rfl | ⟨1, _⟩ => rfl)
theorem r_v24 (i : S800000x128.Idx) (k : Fin 128) : ridx_main_v24 i k = ix2 (n0 := 128) (n1 := 128) k (i 1) :=
  funext fun a => Fin.ext (by match a with | ⟨0, _⟩ => rfl | ⟨1, _⟩ => rfl)
theorem b_v26 (i : S800000x128.Idx) : idx_main_v25 (idx_main_v26 i) = ix1 (n := 128) (i 1) :=
  funext fun a => Fin.ext (by match a with | ⟨0, _⟩ => rfl)

theorem l_v30 (i : S800000x128.Idx) (k : Fin 128) : lidx_main_v30 i k = ix2 (n0 := 800000) (n1 := 128) (i 0) k :=
  funext fun a => Fin.ext (by match a with | ⟨0, _⟩ => rfl | ⟨1, _⟩ => rfl)
theorem r_v30 (i : S800000x128.Idx) (k : Fin 128) : ridx_main_v30 i k = ix2 (n0 := 128) (n1 := 128) k (i 1) :=
  funext fun a => Fin.ext (by match a with | ⟨0, _⟩ => rfl | ⟨1, _⟩ => rfl)
theorem b_v32 (i : S800000x128.Idx) : idx_main_v31 (idx_main_v32 i) = ix1 (n := 128) (i 1) :=
  funext fun a => Fin.ext (by match a with | ⟨0, _⟩ => rfl)

/-! The node stage. -/

/-- x · Wq + bq, entry by entry. -/
theorem ref_q (x0 : FVec Ideal S100000x128 .f32) (x4 : FVec Ideal S128x128 .f32) (x5 : FVec Ideal S128 .f32)
    (i : S100000x128.Idx) :
    val_main_v3 (F := Ideal) x0 x4 x5 i = Cert.Spec.lin (R := 100000) x0 x4 (Cert.Spec.row x5) i := by
  rw [val_main_v3_apply, val_main_v0_apply, val_main_v2_apply, val_main_v1_apply]
  exact lin_read (R := 100000) x0 x4 x5 i _ _ _ (l_v0 i) (r_v0 i) (b_v2 i)

/-- p · Wk + bk, entry by entry. -/
theorem ref_k (x1 : FVec Ideal S100000x128 .f32) (x6 : FVec Ideal S128x128 .f32) (x7 : FVec Ideal S128 .f32)
    (i : S100000x128.Idx) :
    val_main_v7 (F := Ideal) x1 x6 x7 i = Cert.Spec.lin (R := 100000) x1 x6 (Cert.Spec.row x7) i := by
  rw [val_main_v7_apply, val_main_v4_apply, val_main_v6_apply, val_main_v5_apply]
  exact lin_read (R := 100000) x1 x6 x7 i _ _ _ (l_v4 i) (r_v4 i) (b_v6 i)

/-- The reference's gate array is `hS` of its arguments, the two bias vectors as rows. -/
theorem ref_h (x0 x1 : FVec Ideal S100000x128 .f32) (x4 : FVec Ideal S128x128 .f32) (x5 : FVec Ideal S128 .f32)
    (x6 : FVec Ideal S128x128 .f32) (x7 : FVec Ideal S128 .f32) :
    val_main_v13 (F := Ideal) x0 x1 x4 x5 x6 x7
      = Cert.Spec.hS (R := 100000) x0 x1 x4 (Cert.Spec.row x5) x6 (Cert.Spec.row x7) := by
  funext i
  rw [val_main_v13_apply, val_main_v12_apply, val_main_call0_v0_apply, val_main_call0_cst_apply, ref_q, ref_k,
    relu_read]
  rfl

/-- The reference's value array is `vS` of its arguments. -/
theorem ref_v (x1 : FVec Ideal S100000x128 .f32) (x8 : FVec Ideal S128x128 .f32) (x9 : FVec Ideal S128 .f32) :
    val_main_v11 (F := Ideal) x1 x8 x9 = Cert.Spec.vS (R := 100000) x1 x8 (Cert.Spec.row x9) := by
  funext i
  rw [val_main_v11_apply, val_main_v8_apply, val_main_v10_apply, val_main_v9_apply]
  exact lin_read (R := 100000) x1 x8 x9 i _ _ _ (l_v8 i) (r_v8 i) (b_v10 i)

/-! The edge stage. -/

/-- The first edge layer's input is ea + pe, entry by entry. -/
theorem ref_in1 (x2 x3 : FVec Ideal S800000x128 .f32) :
    val_main_v23 (F := Ideal) x2 x3 = fun l => x3 l + x2 l := rfl

/-- The second edge layer's input is relu ((ea + pe) We1 + be1) + pe, entry by entry. -/
theorem ref_in2 (x2 x3 : FVec Ideal S800000x128 .f32) (x10 : FVec Ideal S128x128 .f32) (x11 : FVec Ideal S128 .f32) :
    val_main_v29 (F := Ideal) x2 x3 x10 x11
      = fun j => Cert.Spec.relu (Cert.Spec.lin (R := 800000) (fun l => x3 l + x2 l) x10 (Cert.Spec.row x11) j) + x2 j := by
  funext j
  rw [val_main_v29_apply, val_main_v28_apply, val_main_call1_v0_apply, val_main_call1_cst_apply, val_main_v27_apply,
    val_main_v24_apply, val_main_v26_apply, val_main_v25_apply, ref_in1, relu_read]
  exact congrArg (fun t => Cert.Spec.relu t + x2 j)
    (lin_read (R := 800000) (fun l => x3 l + x2 l) x10 x11 j _ _ _ (l_v24 j) (r_v24 j) (b_v26 j))

/-- The edge stage's own term is relu ((relu ((ea + pe) We1 + be1) + pe) We2 + be2), entry by entry. -/
theorem ref_e (x2 x3 : FVec Ideal S800000x128 .f32) (x10 : FVec Ideal S128x128 .f32) (x11 : FVec Ideal S128 .f32)
    (x12 : FVec Ideal S128x128 .f32) (x13 : FVec Ideal S128 .f32) (i : S800000x128.Idx) :
    val_main_v34 (F := Ideal) x2 x3 x10 x11 x12 x13 i
      = Cert.Spec.relu (Cert.Spec.lin (R := 800000)
          (fun j => Cert.Spec.relu (Cert.Spec.lin (R := 800000) (fun l => x3 l + x2 l) x10 (Cert.Spec.row x11) j) + x2 j)
          x12 (Cert.Spec.row x13) i) := by
  rw [val_main_v34_apply, val_main_call2_v0_apply, val_main_call2_cst_apply, val_main_v33_apply, val_main_v30_apply,
    val_main_v32_apply, val_main_v31_apply, ref_in2, relu_read]
  exact congrArg Cert.Spec.relu
    (lin_read (R := 800000)
      (fun j => Cert.Spec.relu (Cert.Spec.lin (R := 800000) (fun l => x3 l + x2 l) x10 (Cert.Spec.row x11) j) + x2 j)
      x12 x13 i _ _ _ (l_v30 i) (r_v30 i) (b_v32 i))

/-- The reference's message array is `mS` of the edge inputs and of the rows it gathered. -/
theorem ref_msg (x0 x1 : FVec Ideal S100000x128 .f32) (x2 x3 : FVec Ideal S800000x128 .f32) (x4 : FVec Ideal S128x128 .f32)
    (x5 : FVec Ideal S128 .f32) (x6 : FVec Ideal S128x128 .f32) (x7 : FVec Ideal S128 .f32) (x10 : FVec Ideal S128x128 .f32)
    (x11 : FVec Ideal S128 .f32) (x12 : FVec Ideal S128x128 .f32) (x13 : FVec Ideal S128 .f32) (x20 : IVec S2x800000 32) :
    val_main_v36 (F := Ideal) x0 x1 x2 x3 x4 x5 x6 x7 x10 x11 x12 x13 x20
      = Cert.Spec.mS (R := 800000) x3 x2 (val_main_v22 (F := Ideal) x0 x1 x4 x5 x6 x7 x20) x10 (Cert.Spec.row x11) x12 (Cert.Spec.row x13) := by
  funext i
  rw [val_main_v36_apply, val_main_call3_v0_apply, val_main_call3_cst_apply, val_main_v35_apply, ref_e, relu_read]
  generalize val_main_v22 (F := Ideal) x0 x1 x4 x5 x6 x7 x20 = src
  rfl

end Cert.ReferenceIdeal.RefValue

end
-- ==== Proof.RefOut.lean ====
import proofs.«406966_j19507741458638_1_alg».proof.Proof.Gen.ReferenceIdeal.Read
import proofs.«406966_j19507741458638_1_alg».proof.Proof.Spec
import Idealize.ShloMosaic.Lib.Pipeline.Value
import Idealize.ShloMosaic.Lib.ValueLayout
import Idealize.ShloMosaic.PureOps.Ideal.Laws

noncomputable section

namespace Cert.ReferenceIdeal.RefOut

open Idealize.ShloMosaic Idealize.ShloMosaic.ValueIdx
open Cert.ReferenceIdeal Cert.ReferenceIdeal.Gen Cert.ReferenceIdeal.Read

/-! ## The three products' index functions are the row's and the column's coordinates -/

/-- Left index of the [100000,128]·[128,128] product: row `i 0`, contraction coordinate `k`. -/
theorem lidx44 (i : S100000x128.Idx) (k : Fin 128) :
    lidx_main_v44 i k = ix2 (n0 := 100000) (n1 := 128) (i 0) k :=
  funext fun a => Fin.ext (by match a with | ⟨0, _⟩ => rfl | ⟨1, _⟩ => rfl)

/-- Right index of the [100000,128]·[128,128] product: contraction coordinate `k`, column `i 1`. -/
theorem ridx44 (i : S100000x128.Idx) (k : Fin 128) :
    ridx_main_v44 i k = ix2 (n0 := 128) (n1 := 128) k (i 1) :=
  funext fun a => Fin.ext (by match a with | ⟨0, _⟩ => rfl | ⟨1, _⟩ => rfl)

/-- Left index of the [100000,128]·[128,256] product. -/
theorem lidx50 (i : S100000x256.Idx) (k : Fin 128) :
    lidx_main_v50 i k = ix2 (n0 := 100000) (n1 := 128) (i 0) k :=
  funext fun a => Fin.ext (by match a with | ⟨0, _⟩ => rfl | ⟨1, _⟩ => rfl)

/-- Right index of the [100000,128]·[128,256] product. -/
theorem ridx50 (i : S100000x256.Idx) (k : Fin 128) :
    ridx_main_v50 i k = ix2 (n0 := 128) (n1 := 256) k (i 1) :=
  funext fun a => Fin.ext (by match a with | ⟨0, _⟩ => rfl | ⟨1, _⟩ => rfl)

/-- Left index of the [100000,256]·[256,128] product. -/
theorem lidx55 (i : S100000x128.Idx) (k : Fin 256) :
    lidx_main_v55 i k = ix2 (n0 := 100000) (n1 := 256) (i 0) k :=
  funext fun a => Fin.ext (by match a with | ⟨0, _⟩ => rfl | ⟨1, _⟩ => rfl)

/-- Right index of the [100000,256]·[256,128] product. -/
theorem ridx55 (i : S100000x128.Idx) (k : Fin 256) :
    ridx_main_v55 i k = ix2 (n0 := 256) (n1 := 128) k (i 1) :=
  funext fun a => Fin.ext (by match a with | ⟨0, _⟩ => rfl | ⟨1, _⟩ => rfl)

/-! ## A bias vector broadcast to a row and then to every row is the bias row's entry at the column -/

/-- The bias of the first layer read at `i`: entry `i 1` of the vector, which is the one-row matrix's entry `(0, i 1)`. -/
theorem bias46 (b : FVec Ideal S128 .f32) (i : S100000x128.Idx) :
    val_main_v46 (F := Ideal) b i = Cert.Spec.row b (ix2 (n0 := 1) (n1 := 128) 0 (i 1)) := by
  rw [val_main_v46_apply, val_main_v45_apply]
  unfold Cert.Spec.row
  exact congrArg b (funext fun a => Fin.ext (by match a with | ⟨0, _⟩ => rfl))

/-- The bias of the second layer (length 256) read at `i`. -/
theorem bias52 (b : FVec Ideal S256 .f32) (i : S100000x256.Idx) :
    val_main_v52 (F := Ideal) b i = Cert.Spec.row b (ix2 (n0 := 1) (n1 := 256) 0 (i 1)) := by
  rw [val_main_v52_apply, val_main_v51_apply]
  unfold Cert.Spec.row
  exact congrArg b (funext fun a => Fin.ext (by match a with | ⟨0, _⟩ => rfl))

/-- The bias of the third layer read at `i`. -/
theorem bias57 (b : FVec Ideal S128 .f32) (i : S100000x128.Idx) :
    val_main_v57 (F := Ideal) b i = Cert.Spec.row b (ix2 (n0 := 1) (n1 := 128) 0 (i 1)) := by
  rw [val_main_v57_apply, val_main_v56_apply]
  unfold Cert.Spec.row
  exact congrArg b (funext fun a => Fin.ext (by match a with | ⟨0, _⟩ => rfl))

/-! ## The rectifier's second operand is zero's word at every index -/

/-- The broadcast constant of the first rectifier is zero's word. -/
theorem zero4 (i : S100000x128.Idx) : val_main_call4_v0 (F := Ideal) i = Cert.Spec.z := by
  rw [val_main_call4_v0_apply, val_main_call4_cst_apply]; rfl

/-- The broadcast constant of the second rectifier is zero's word. -/
theorem zero5 (i : S100000x256.Idx) : val_main_call5_v0 (F := Ideal) i = Cert.Spec.z := by
  rw [val_main_call5_v0_apply, val_main_call5_cst_apply]; rfl

/-! ## The output stage, one layer at a time -/

section stages

variable (x0 x1 : FVec Ideal S100000x128 .f32) (x2 x3 : FVec Ideal S800000x128 .f32) (x4 : FVec Ideal S128x128 .f32)
    (x5 : FVec Ideal S128 .f32) (x6 : FVec Ideal S128x128 .f32) (x7 : FVec Ideal S128 .f32) (x8 : FVec Ideal S128x128 .f32)
    (x9 : FVec Ideal S128 .f32) (x10 : FVec Ideal S128x128 .f32) (x11 : FVec Ideal S128 .f32) (x12 : FVec Ideal S128x128 .f32)
    (x13 : FVec Ideal S128 .f32) (x14 : FVec Ideal S128x128 .f32) (x15 : FVec Ideal S128 .f32) (x16 : FVec Ideal S128x256 .f32)
    (x17 : FVec Ideal S256 .f32) (x18 : FVec Ideal S256x128 .f32) (x19 : FVec Ideal S128 .f32) (x20 : IVec S2x800000 32)

/-- The array entering the first layer is (h + V) + aggr, index by index. -/
theorem stage43 :
    val_main_v43 (F := Ideal) x0 x1 x2 x3 x4 x5 x6 x7 x8 x9 x10 x11 x12 x13 x20
      = fun q => (val_main_v13 (F := Ideal) x0 x1 x4 x5 x6 x7 q + val_main_v11 (F := Ideal) x1 x8 x9 q)
          + val_main_v41 (F := Ideal) x0 x1 x2 x3 x4 x5 x6 x7 x10 x11 x12 x13 x20 q := by
  funext q
  rw [val_main_v43_apply, val_main_v42_apply]
  simp only [Ideal.addf_def]

/-- The first layer, rectified, plus the skip connection: relu (s Wh + bh) + x. -/
theorem stage49 :
    val_main_v49 (F := Ideal) x0 x1 x2 x3 x4 x5 x6 x7 x8 x9 x10 x11 x12 x13 x14 x15 x20
      = fun l => Cert.Spec.relu (Cert.Spec.lin (R := 100000) (K := 128) (C := 128)
          (val_main_v43 (F := Ideal) x0 x1 x2 x3 x4 x5 x6 x7 x8 x9 x10 x11 x12 x13 x20) x14 (Cert.Spec.row x15) l) + x0 l := by
  funext l
  rw [val_main_v49_apply, val_main_v48_apply, val_main_v47_apply, val_main_v44_apply, bias46, zero4]
  unfold Cert.Spec.relu Cert.Spec.lin
  simp only [Ideal.addf_def, Ideal.maximumf_def, lidx44, ridx44]

/-- The second layer, rectified: relu (t Wf1 + bf1). -/
theorem stage54 :
    val_main_v54 (F := Ideal) x0 x1 x2 x3 x4 x5 x6 x7 x8 x9 x10 x11 x12 x13 x14 x15 x16 x17 x20
      = fun j => Cert.Spec.relu (Cert.Spec.lin (R := 100000) (K := 128) (C := 256)
          (val_main_v49 (F := Ideal) x0 x1 x2 x3 x4 x5 x6 x7 x8 x9 x10 x11 x12 x13 x14 x15 x20) x16 (Cert.Spec.row x17) j) := by
  funext j
  rw [val_main_v54_apply, val_main_v53_apply, val_main_v50_apply, bias52, zero5]
  unfold Cert.Spec.relu Cert.Spec.lin
  simp only [Ideal.addf_def, Ideal.maximumf_def, lidx50, ridx50]

/-- The third layer: u Wf2 + bf2. -/
theorem stage58 :
    val_main_v58 (F := Ideal) x0 x1 x2 x3 x4 x5 x6 x7 x8 x9 x10 x11 x12 x13 x14 x15 x16 x17 x18 x19 x20
      = Cert.Spec.lin (R := 100000) (K := 256) (C := 128)
          (val_main_v54 (F := Ideal) x0 x1 x2 x3 x4 x5 x6 x7 x8 x9 x10 x11 x12 x13 x14 x15 x16 x17 x20) x18 (Cert.Spec.row x19) := by
  funext i
  rw [val_main_v58_apply, val_main_v55_apply, bias57]
  unfold Cert.Spec.lin
  simp only [Ideal.addf_def, lidx55, ridx55]

end stages

/-- The reference's result is `oS` of its gate, value and aggregate arrays and of the output stage's arguments. -/
theorem ref_out (x0 x1 : FVec Ideal S100000x128 .f32) (x2 x3 : FVec Ideal S800000x128 .f32) (x4 : FVec Ideal S128x128 .f32)
    (x5 : FVec Ideal S128 .f32) (x6 : FVec Ideal S128x128 .f32) (x7 : FVec Ideal S128 .f32) (x8 : FVec Ideal S128x128 .f32)
    (x9 : FVec Ideal S128 .f32) (x10 : FVec Ideal S128x128 .f32) (x11 : FVec Ideal S128 .f32) (x12 : FVec Ideal S128x128 .f32)
    (x13 : FVec Ideal S128 .f32) (x14 : FVec Ideal S128x128 .f32) (x15 : FVec Ideal S128 .f32) (x16 : FVec Ideal S128x256 .f32)
    (x17 : FVec Ideal S256 .f32) (x18 : FVec Ideal S256x128 .f32) (x19 : FVec Ideal S128 .f32) (x20 : IVec S2x800000 32) :
    val_main_v58 (F := Ideal) x0 x1 x2 x3 x4 x5 x6 x7 x8 x9 x10 x11 x12 x13 x14 x15 x16 x17 x18 x19 x20
      = Cert.Spec.oS (R := 100000) (val_main_v13 (F := Ideal) x0 x1 x4 x5 x6 x7) (val_main_v11 (F := Ideal) x1 x8 x9)
          (val_main_v41 (F := Ideal) x0 x1 x2 x3 x4 x5 x6 x7 x10 x11 x12 x13 x20) x0 x14 (Cert.Spec.row x15) x16 (Cert.Spec.row x17)
          x18 (Cert.Spec.row x19) := by
  rw [stage58, stage54, stage49, stage43]
  rfl

end Cert.ReferenceIdeal.RefOut

end
-- ==== Proof.Bridge.lean ====
/-
  The two idealized programs compute one function.

  The reference's result, read stage by stage, is the output stage of (the gate, the value, the scatter-add of the edge stage's
  messages over the gathered gate rows); the kernel's result is the same composition, except that its take of the gate rows
  replaces a row whose wrapped source index is out of range by a fill word. Where every source index lies in [-100000, 100000)
  no row is replaced (the in-range mask is all ones), a bias vector reshaped to a row is the row the reference broadcasts,
  and the gather and the scatter-add are the same operations on the same index words on both sides.
-/
import proofs.«406966_j19507741458638_1_alg».proof.Proof.KernelGlue
import proofs.«406966_j19507741458638_1_alg».proof.Proof.RefValue
import proofs.«406966_j19507741458638_1_alg».proof.Proof.RefOut
import proofs.«406966_j19507741458638_1_alg».proof.Proof.SrcRange
import proofs.«406966_j19507741458638_1_alg».proof.Proof.LibIndexWrap
import Idealize.ShloMosaic.Lib.ValueLayout

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.SrcRange Cert.KernelIdeal.Glue

/-- A length-n vector reshaped to [1, n] is the vector as a row. -/
theorem reshape_row {n : Nat} (b : Cert.Spec.Vc n) (h : (⟨1, ![n]⟩ : Shape).ShapeCasts ⟨2, ![1, n]⟩) :
    shapeCast ⟨2, ![1, n]⟩ b h = Cert.Spec.row b := by
  funext j
  rw [eq_ix2 j]
  exact shapeCast_a_1a_apply b h _ _

/-- The reference's wrapped source indices are the kernel's. -/
theorem ref_wrapIds (x20 : IVec S2x800000 32) :
    Cert.ReferenceIdeal.Read.val_main_v21 (F := Ideal) x20 = wrapIds (srcIds x20) := rfl

/-- The reference's destination indices are the kernel's. -/
theorem ref_dstIds (x20 : IVec S2x800000 32) :
    Cert.ReferenceIdeal.Read.val_main_v40 (F := Ideal) x20 = dstIds x20 := rfl

/-- The reference's scatter-add starts from the same zeros. -/
theorem ref_zeros : Cert.ReferenceIdeal.Read.val_main_v39 (F := Ideal)
    = broadcastInDim S100000x128 ![] bcast_S_S100000x128 (constant (F := Ideal) S_ .f32 0x00000000#32) := rfl

/-- With every source index in range the reference's result is the kernel's composed stages. -/
theorem result_eq (m : (ℓ : Loc nD τ sig) → Buf (Elt Ideal) ℓ) (c : Dev nD)
    (hr : ∀ e, -(100000 : Int) ≤ (srcIds (m ((c.tc : Thread nD τ).loc main_arg20)) e).toInt ∧ (srcIds (m ((c.tc : Thread nD τ).loc main_arg20)) e).toInt < 100000) :
    Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      = result m c := by
  rw [Cert.ReferenceIdeal.RefOut.ref_out, Cert.ReferenceIdeal.RefValue.ref_h, Cert.ReferenceIdeal.RefValue.ref_v]
  unfold Cert.ReferenceIdeal.Read.val_main_v41
  rw [Cert.ReferenceIdeal.RefValue.ref_msg]
  unfold Cert.ReferenceIdeal.Read.val_main_v22
  rw [Cert.ReferenceIdeal.RefValue.ref_h, ref_wrapIds, ref_dstIds, ref_zeros]
  unfold result aggr msg srcRows gate value
  rw [Idealize.ShloMosaic.IndexWrap.select_of_ones _ _ _ (mask_ones _ hr)]
  simp only [reshape_row]
  rfl

end Cert.Bridge

end
-- ==== Proof.lean ====
/-
  A graph message-passing layer on 100000 nodes and 800000 edges, width 128, as three tiled kernels (node stage, edge stage,
  output stage) with a row gather and a scatter-add between them, against the plain array program:

    Q = x Wq + bq,  K = p Wk + bk,  V = p Wv + bv,  h = relu (Q ⊙ K),  src = h[edge_index[0]],
    e = relu ((relu ((ea + pe) We1 + be1) + pe) We2 + be2),  msg = relu (src + e),
    aggr = segment_sum (msg, edge_index[1]),
    out = relu (relu ((h + V + aggr) Wh + bh) + x) Wf1 + bf1) Wf2 + bf2.

  Over the extended reals every dense layer is the same sum of products on both sides (a tiled matmul into a zero accumulator
  and a whole dot_general are both the sum over the contracted index), each tile of an output is the whole-array function
  restricted to the tile's rows, and the tiles cover the arrays; no algebraic law beyond that is needed, so finiteness of the
  float inputs is not used. The two programs differ in one place: the kernel's take of the gate rows fills a row whose source
  index, wrapped, is out of range with a fill word, where the reference's indexing clamps. Under the precondition's conjunct
  that every source index lies in [-100000, 100000) — outside it the reference itself indexes out of range — the mask is all
  ones and the two gathers agree. The destination indices are used by one and the same scatter-add on both sides.
-/
import proofs.«406966_j19507741458638_1_alg».proof.Defs
import proofs.«406966_j19507741458638_1_alg».proof.Proof.Gen.Kernel
import proofs.«406966_j19507741458638_1_alg».proof.Proof.Gen.Kernel.Skeleton
import proofs.«406966_j19507741458638_1_alg».proof.Proof.Gen.Kernel.Launch
import proofs.«406966_j19507741458638_1_alg».proof.Proof.Gen.Kernel.Points
import proofs.«406966_j19507741458638_1_alg».proof.Proof.Gen.Kernel.Frame
import proofs.«406966_j19507741458638_1_alg».proof.Proof.Gen.KernelIdeal
import proofs.«406966_j19507741458638_1_alg».proof.Proof.Gen.KernelIdeal.Skeleton
import proofs.«406966_j19507741458638_1_alg».proof.Proof.Gen.KernelIdeal.Launch
import proofs.«406966_j19507741458638_1_alg».proof.Proof.Gen.KernelIdeal.Points
import proofs.«406966_j19507741458638_1_alg».proof.Proof.Gen.KernelIdeal.Frame
import proofs.«406966_j19507741458638_1_alg».proof.Proof.Gen.ReferenceIdeal
import proofs.«406966_j19507741458638_1_alg».proof.Proof.Gen.Pre_finite_inputs
import proofs.«406966_j19507741458638_1_alg».proof.Proof.Gen.ReferenceIdeal.Run
import proofs.«406966_j19507741458638_1_alg».proof.Proof.Gen.ReferenceIdeal.Read
import proofs.«406966_j19507741458638_1_alg».proof.Proof.KernelRun
import proofs.«406966_j19507741458638_1_alg».proof.Proof.KernelGlue
import proofs.«406966_j19507741458638_1_alg».proof.Proof.SrcRange
import proofs.«406966_j19507741458638_1_alg».proof.Proof.Bridge
import Idealize.ShloMosaic.Adequacy
import Idealize.ShloMosaic.Init

noncomputable section

namespace Cert.Proof

open Idealize.ShloMosaic Idealize.SL.Sem Cert.Kernel

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result array: the three stages
    composed, of the launch contents. -/
theorem algebraic : Cert.algebraic_KernelIdeal_ReferenceIdeal := by
  intro m ρ m' ρ' hpre hagree
  refine ⟨fun c => Cert.KernelIdeal.Glue.result m c, ?_, ?_⟩
  · exact (θ_run Cert.KernelIdeal.defs _ _).mono
      (fun r h c => ⟨(h c).1.trans (Cert.KernelIdeal.Glue.W8_result m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v58_eq]
    obtain ⟨h0, h1, h2, h3, h4, h5, h6, h7, h8, h9, h10, h11, h12, h13, h14, h15, h16, h17, h18, h19, h20⟩ := hagree c
    rw [h0, h1, h2, h3, h4, h5, h6, h7, h8, h9, h10, h11, h12, h13, h14, h15, h16, h17, h18, h19, h20]
    exact Cert.Bridge.result_eq m c (fun e => Cert.KernelIdeal.SrcRange.range_of_pre m hpre c e)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
